-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg1 : FVec F S128 .f32) (main_arg3 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S128 .f32 := broadcastInDim S128 ![] bcast_S_S128 main_cst_6
  let main_v20 : IVec S128 1 := cmpf .oge main_arg1 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v18 main_v21
  let main_cst_8 : FVec F S_ .f32 := constant S_ .f32 0x00000000#32
  let main_v23 : FVec F S128 .f32 := broadcastInDim S128 ![] bcast_S_S128 main_cst_8
  let main_v24 : IVec S128 1 := cmpf .oge main_arg3 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v22 main_v25
  main_v26

def fn {F : FTy → Type} [FloatOps F] (main_arg0 : FVec F S1000000x128 .f32) (main_arg1 : FVec F S128 .f32) (main_arg2 : FVec F S128 .f32) (main_arg3 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_v13 main_v16
-- ==== Kernel.lean ====
abbrev S1000000x128 : Shape := ⟨2, ![1000000, 128]⟩
abbrev S128 : Shape := ⟨1, ![128]⟩
abbrev S4x1x128 : Shape := ⟨3, ![4, 1, 128]⟩
abbrev S10000x128 : Shape := ⟨2, ![10000, 128]⟩
abbrev S1x1x128 : Shape := ⟨3, ![1, 1, 128]⟩
abbrev S1x128 : Shape := ⟨2, ![1, 128]⟩

abbrev nBuf : Space → Nat
  | .hbm => 10
  | .vmem => 15
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S4x1x128, .f32⟩
  | .hbm, ⟨5, _⟩ => ⟨S4x1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1000000x128, .f32⟩
  | .local _ .vmem, ⟨0, _⟩ => ⟨S10000x128, .f32⟩
  | .local _ .vmem, ⟨1, _⟩ => ⟨S10000x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S10000x128, .f32⟩
  | .local _ .vmem, ⟨7, _⟩ => ⟨S10000x128, .f32⟩
  | .local _ .vmem, ⟨8, _⟩ => ⟨S4x1x128, .f32⟩
  | .local _ .vmem, ⟨9, _⟩ => ⟨S4x1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S10000x128, .f32⟩
  | .local _ .vmem, ⟨14, _⟩ => ⟨S10000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![4, 25], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_2 : BitVec 32 := 0#32
  let v8 : BitVec 1 := Scalar.cmpi .ne v7 c0_i32_2
  v8

def k0_cond2 (i : grid0.Coords) : BitVec 1 :=
  let arg1 : BitVec 32 := BitVec.ofNat 32 (i 1).val
  let c0_i32_3 : BitVec 32 := 0#32
  let v9 : BitVec 1 := Scalar.cmpi .ne arg1 c0_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S4x1x128_S4x1x128_0_0_0 : ∀ a, (![0, 0, 0] : Fin 3 → Nat) a + S4x1x128.size a ≤ S4x1x128.size a
  h_S4x1x128 : 0 < S4x1x128.numel
  shapeCasts_S4x1x128_S4x1x128 : S4x1x128.ShapeCasts S4x1x128
  reduces_S4x1x128_S1x128 : S4x1x128.Reduces [0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S4x1x128.size a
  hwx0_1 : ∀ i : grid0.Coords, EltTy.bits .f32 = 32 ∨ (Rect.block (s := S4x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1000000x128.size a
  hwx1_0 : ∀ i : grid1.Coords, EltTy.bits .f32 = 32 ∨ (Rect.block (s := S1000000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x1x128.size a ≤ S4x1x128.size a
  hwx1_1 : ∀ i : grid1.Coords, EltTy.bits .f32 = 32 ∨ (Rect.block (s := S4x1x128) S4x1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x1x128.size a ≤ S4x1x128.size a
  hwx1_2 : ∀ i : grid1.Coords, EltTy.bits .f32 = 32 ∨ (Rect.block (s := S4x1x128) S4x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S1000000x128.size a
  hwx1_6 : ∀ i : grid1.Coords, EltTy.bits .f32 = 32 ∨ (Rect.block (s := S1000000x128) S10000x128.size (cc1_transform_6 i) (hinb1_6 i)).WholeWords (EltTy.packing .f32)

variable [Facts₀]

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4x1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S4x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S128 : Shape := ⟨1, ![128]⟩
abbrev S_ : Shape := ⟨0, ![]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S1000000x128, .f32⟩
  | .hbm, ⟨11, _⟩ => ⟨S1000000x128, .f32⟩
  | .hbm, ⟨12, _⟩ => ⟨S1000000x128, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S1000000x128, .f32⟩
  | .hbm, ⟨45, _⟩ => ⟨S1000000x128, .f32⟩
  | .hbm, ⟨46, _⟩ => ⟨S1x128, .f32⟩
  | .hbm, ⟨47, _⟩ => ⟨S1000000x128, .f32⟩
  | .hbm, ⟨48, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  reducesTo_S1000000x128_S128_d0 : S1000000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)

variable [Facts₀]

class Facts : Prop extends Facts₀ where

variable [Facts]
-- ==== Proof.K.Stats.lean ====
/-
  REGION 0 of the kernel program: the statistics pass. Its grid is 4 × 25; point t = 25·i + s reads rows
  [10000·t, 10000·(t+1)) of x (its block of window 0) and keeps, in the staging buffers of windows 1 and 2 (block i of
  the two partial arrays), the column sums and the column sums of squares of the blocks seen so far for this i:
  at s = 0 the buffers are SET to the block's sums, at s ≠ 0 the block's sums are ADDED to what the point before
  left; the buffers are written back after s = 24. This module states what each buffer holds after every point
  (`outsAt0`), the proof data of the pipeline over entry contents `V`, and the body's obligation. Generic in the
  float instance.
-/
import proofs.«173743_g90340342104516_pilotgen1_308_7_alg».proof.Proof.Gen.Kernel.Launch
import proofs.«173743_g90340342104516_pilotgen1_308_7_alg».proof.Proof.Gen.Kernel.Skeleton
import proofs.«173743_g90340342104516_pilotgen1_308_7_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions on the inner coordinate, and liveness -/

/-- The first branch (`s = 0`) is taken exactly at the points ≡ 0 (mod 25). -/
theorem hcond1 : ∀ t : Fin cfg0.N, k0_cond1 (grid0.coords t) = 1#1 ↔ t.val % 25 = 0 :=
  (by decide +kernel : ∀ t : Fin grid0.N, k0_cond1 (grid0.coords t) = 1#1 ↔ t.val % 25 = 0)
/-- The second branch (`s ≠ 0`) is taken exactly at the other points. -/
theorem hcond2 : ∀ t : Fin cfg0.N, k0_cond2 (grid0.coords t) = 1#1 ↔ ¬ t.val % 25 = 0 :=
  (by decide +kernel : ∀ t : Fin grid0.N, k0_cond2 (grid0.coords t) = 1#1 ↔ ¬ t.val % 25 = 0)

/-- One of the two branches stores at every coordinate: no window is idle anywhere. -/
theorem live0 (w : Fin cfg0.W) (i : grid0.Coords) : cfg0.idle w i = false := by
  have key : ∀ s : Fin 25,
      (!(Scalar.cmpi .ne (Scalar.extui (Scalar.cmpi .eq (BitVec.ofNat 32 s.val) 0#32)) 0#32 == 1#1)
        && !(Scalar.cmpi .ne (Scalar.extui (Scalar.cmpi .ne (BitVec.ofNat 32 s.val) 0#32)) 0#32 == 1#1)) = false := by
    decide
  match w with
  | ⟨0, _⟩ => rfl
  | ⟨1, _⟩ => exact key (i 1)
  | ⟨2, _⟩ => exact key (i 1)

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (live0 0) (fun _ _ _ => rfl) (fun t => by rw [hafter]; unfold Dat.blockOf iblk0; rw [hA]; try rfl) t d).trans
    (by unfold Dat.fetched Dat.blockOf iblk0; rw [hA]; try rfl)

/-! ## What the body leaves in the two partial buffers, by case -/

/-- The whole input block, and the whole partial buffer. -/
abbrev rX : Rect S10000x128 := Rect.unit (s := S10000x128) ![0, 0] S10000x128.size inb_S10000x128_S10000x128_0_0
abbrev rP : Rect S1x1x128 := Rect.unit (s := S1x1x128) ![0, 0, 0] S1x1x128.size inb_S1x1x128_S1x1x128_0_0_0

/-- At `s = 0`: the block's column sums, and its column sums of squares. -/
def outA_1 (x0 : Vec F S10000x128 .f32) : Vec F S1x1x128 .f32 := View.canon [⟨rP, k0_pay3 (View.ld x0 rX)⟩]
def outA_2 (x0 : Vec F S10000x128 .f32) : Vec F S1x1x128 .f32 := View.canon [⟨rP, k0_pay4 (View.ld x0 rX)⟩]
/-- At `s ≠ 0`: the same added to what the buffer held (`p`). -/
def outB_1 (x0 : Vec F S10000x128 .f32) (p : Vec F S1x1x128 .f32) : Vec F S1x1x128 .f32 :=
  View.canon [⟨rP, k0_pay5 (View.ld x0 rX) (View.ld p rP)⟩]
def outB_2 (x0 : Vec F S10000x128 .f32) (p : Vec F S1x1x128 .f32) : Vec F S1x1x128 .f32 :=
  View.canon [⟨rP, k0_pay6 (View.ld x0 rX) (View.ld p rP)⟩]

/-- One whole-buffer store covers the buffer. -/
theorem coverP (p0 : Vec F S1x1x128 .f32) (y : S1x1x128.Idx) :
    ∃ pc ∈ ([⟨rP, p0⟩] : List (View.Piece (Elt F) S1x1x128 .f32)), y ∈ pc.1.set :=
  View.cover_of_tiled [⟨rP, p0⟩] S1x1x128.size (by rfl) y

end Region

/-! ## The body's triple, by case -/

set_option maxHeartbeats 1000000 in
/-- The body at a point with `s = 0`: the input at `x0`, the partial buffers at anything; they end at the block's sums. -/
theorem sound_kernelA (c : Dev nD) (E : Set ℕ) (i : grid0.Coords) (hc1 : k0_cond1 i = 1#1) (hc2 : ¬ k0_cond2 i = 1#1)
    (arg2 : Memref sig .tc .vmem S10000x128 .f32) (harg2 : arg2.IsWhole) (arg3 : Memref sig .tc .vmem S1x1x128 .f32) (harg3 : arg3.IsWhole)
    (arg4 : Memref sig .tc .vmem S1x1x128 .f32) (harg4 : arg4.IsWhole)
    (x0 : Vec F S10000x128 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (outA_1 x0)
            ∗ owns (c : Thread nD τ) arg4 fullShare (outA_2 x0)) -∗ K ⟨⟩))
      ⊢ wp frame (wpE (defs₀ (F := F)) Variants.none c none) E (cc0_vnorm_stats i arg2 harg2 arg3 harg3 arg4 harg4) K := by
  simp only [cc0_vnorm_stats_eq_skeleton]; unfold cc0_vnorm_stats_skel
  unfold owns
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverP _)
  iexists _; isplitr
  swap; · iexact H2
  ipureintro
  exact View.read_writes_eq_canon _ _ _ (coverP _)

set_option maxHeartbeats 1000000 in
/-- The body at a point with `s ≠ 0`: the input at `x0`, the partial buffers at `p1`, `p2`; they end at the sums added. -/
theorem sound_kernelB (c : Dev nD) (E : Set ℕ) (i : grid0.Coords) (hc1 : ¬ k0_cond1 i = 1#1) (hc2 : k0_cond2 i = 1#1)
    (arg2 : Memref sig .tc .vmem S10000x128 .f32) (harg2 : arg2.IsWhole) (arg3 : Memref sig .tc .vmem S1x1x128 .f32) (harg3 : arg3.IsWhole)
    (arg4 : Memref sig .tc .vmem S1x1x128 .f32) (harg4 : arg4.IsWhole)
    (x0 : Vec F S10000x128 .f32) (p1 p2 : Vec F S1x1x128 .f32) (K : PUnit → sProp 𝕄) :
    iprop(owns (c : Thread nD τ) arg2 fullShare x0 ∗ owns (c : Thread nD τ) arg3 fullShare p1 ∗ owns (c : Thread nD τ) arg4 fullShare p2
        ∗ (iprop(owns (c : Thread nD τ) arg2 fullShare x0 ∗ owns (c : Thread nD τ) arg3 fullShare (outB_1 x0 p1)
            ∗ owns (c : Thread nD τ) arg4 fullShare (outB_2 x0 p2)) -∗ K ⟨⟩))
      ⊢ wp frame (wpE (defs₀ (F := F)) Variants.none c none) E (cc0_vnorm_stats i arg2 harg2 arg3 harg3 arg4 harg4) K := by
  simp only [cc0_vnorm_stats_eq_skeleton]; unfold cc0_vnorm_stats_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverP _)
  iexists _; isplitr
  swap; · iexact H2
  ipureintro
  exact View.read_writes_eq_canon _ _ _ (coverP _)

/-! ## What the two partial buffers hold after each point -/

section Data
variable (V : (c : Dev nD) → (b : Ref sig .tc) → Buf (Elt F) ((c : Thread nD τ).loc b))

/-- THE ACCUMULATION: after the body at position `n` the two partial buffers hold the block's sums if `n ≡ 0 (mod 25)`,
    else the block's sums added to what position `n - 1` left (the buffers are not written back in between). -/
def outsAt0 (c : Dev nD) : (n : ℕ) → n < cfg0.N → Vec F S1x1x128 .f32 × Vec F S1x1x128 .f32
  | 0, hn => (outA_1 (iblk0 V c 0 ⟨0, hn⟩), outA_2 (iblk0 V c 0 ⟨0, hn⟩))
  | n + 1, hn =>
    if (n + 1) % 25 = 0 then (outA_1 (iblk0 V c 0 ⟨n + 1, hn⟩), outA_2 (iblk0 V c 0 ⟨n + 1, hn⟩))
    else (outB_1 (iblk0 V c 0 ⟨n + 1, hn⟩) (outsAt0 c n (Nat.lt_of_succ_lt hn)).1,
          outB_2 (iblk0 V c 0 ⟨n + 1, hn⟩) (outsAt0 c n (Nat.lt_of_succ_lt hn)).2)

/-- At a point with `s = 0`. -/
theorem outsAt0_A (c : Dev nD) (t : Fin cfg0.N) (h0 : t.val % 25 = 0) :
    outsAt0 V c t.val t.isLt = (outA_1 (iblk0 V c 0 t), outA_2 (iblk0 V c 0 t)) := by
  obtain ⟨n, hn⟩ := t
  cases n with
  | zero => exact rfl
  | succ n => exact (if_pos h0).trans rfl

/-- At a point with `s ≠ 0`. -/
theorem outsAt0_B (c : Dev nD) (t : Fin cfg0.N) (h0 : ¬ t.val % 25 = 0) :
    outsAt0 V c t.val t.isLt
      = (outB_1 (iblk0 V c 0 t) (outsAt0 V c (t.val - 1) (Nat.lt_of_le_of_lt (Nat.sub_le _ _) t.isLt)).1,
         outB_2 (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 0 on core `c`: the arrays as the region finds them; after the body at point `t` the
    input's buffer at its block and the partial buffers at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

/-- At a point with `s ≠ 0` a partial buffer holds what the body left at the point before: the point is not the first
    and the buffer was not written back in between (write-backs happen after `s = 24` only). -/
theorem before0_1_B (c : Dev nD) (t : Fin cfg0.N) (h0 : ¬ t.val % 25 = 0) (d) :
    (dat0 V c).before 1 t d = (outsAt0 V c (t.val - 1) (Nat.lt_of_le_of_lt (Nat.sub_le _ _) t.isLt)).1 := by
  have hN : t.val < 100 := lt_of_lt_of_eq t.isLt (show cfg0.N = 100 from N_0)
  rw [Dat.before_out_kept _ 1 rfl t (by omega) (Bool.eq_false_iff.mpr fun h => by have := (flush0_1 _).mp h; dsimp only at this; omega)
    (live0 1) (fun _ _ => rfl)]
  dsimp only [dat0]
theorem before0_2_B (c : Dev nD) (t : Fin cfg0.N) (h0 : ¬ t.val % 25 = 0) (d) :
    (dat0 V c).before 2 t d = (outsAt0 V c (t.val - 1) (Nat.lt_of_le_of_lt (Nat.sub_le _ _) t.isLt)).2 := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (live0 2) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the input's buffer holds its block; the point's inner coordinate says which branch runs;
    at `s ≠ 0` the partial buffers hold what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val % 25 = 0
  · rw [outsAt0_A V c t h0]
    iintro ⟨HΦ, Ho, ⟨%d0, H0⟩, ⟨%d1, H1⟩, ⟨%d2, H2⟩⟩
    iapply (sound_kernelA c Set.univ (grid0.coords t) ((hcond1 t).mpr h0) (fun h => ((hcond2 t).mp h) h0) _ _ _ _ _ _ (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt0_B V c t h0]
    simp only [before0_1_B V c t h0, before0_2_B V c t h0]
    iintro ⟨HΦ, Ho, ⟨%d0, H0⟩, ⟨%d1, H1⟩, ⟨%d2, H2⟩⟩
    iapply (sound_kernelB c Set.univ (grid0.coords t) (fun h => h0 ((hcond1 t).mp h)) ((hcond2 t).mpr h0) _ _ _ _ _ _ (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Data

end Cert.Kernel.Stats

end
-- ==== Proof.K.StatsOblig.lean ====
/-
  REGION 0, the body obligation: at every point of the grid one of the body's two branches stores into both partial
  buffers, so no window is idle anywhere and what the library asks of each buffer after the body is the proof data's
  `after`; the body's run at a point (Stats.lean) gives exactly that.
-/
import proofs.«173743_g90340342104516_pilotgen1_308_7_alg».proof.Proof.K.Stats

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Data
variable (V : (c : Dev nD) → (b : Ref sig .tc) → Buf (Elt F) ((c : Thread nD τ).loc b))

set_option maxHeartbeats 1000000 in
/-- The library's body obligation, at every point: no window is idle anywhere (`live0`), so what each buffer must
    hold after the body is the proof data's `after`. -/
theorem body_obligation0 (c : Dev nD) : BodyObligation (dat0 (F := F) V c) (defs₀ (F := F)) Variants.none () Set.univ := fun t => by
  rw [bigSep_W0, bigSep_W0]
  have h1 : cfg0.idle 1 (cfg0.grid.coords t) = false := live0 1 _
  rw [h1]
  exact sound_body0 V c t

end Data

end Cert.Kernel.Stats

end
-- ==== Proof.K.Apply.lean ====
/-
  REGION 1 of the kernel program: the normalising pass. Its grid is 4 × 25; point t reads rows
  [10000·t, 10000·(t+1)) of x (window 0), the two whole partial arrays (windows 1, 2) and the three running
  statistics as rows (windows 3, 4, 5), and writes the same rows of the result (window 6): every entry minus the new
  mean, times the reciprocal square root of the new variance. The body reads each buffer whole and stores the result
  block whole, at every point alike. This module states what the result buffer holds after a point, the proof data of the
  pipeline over entry contents `V`, and the body's obligation. Generic in the float instance.
-/
import proofs.«173743_g90340342104516_pilotgen1_308_7_alg».proof.Proof.Gen.Kernel.Launch
import proofs.«173743_g90340342104516_pilotgen1_308_7_alg».proof.Proof.Gen.Kernel.Skeleton
import proofs.«173743_g90340342104516_pilotgen1_308_7_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Apply

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses and what it leaves in the result buffer -/

abbrev rX : Rect S10000x128 := Rect.unit (s := S10000x128) ![0, 0] S10000x128.size inb_S10000x128_S10000x128_0_0
abbrev rQ : Rect S4x1x128 := Rect.unit (s := S4x1x128) ![0, 0, 0] S4x1x128.size inb_S4x1x128_S4x1x128_0_0_0
abbrev rR : Rect S1x128 := Rect.unit (s := S1x128) ![0, 0] S1x128.size inb_S1x128_S1x128_0_0

/-- The result block from the x block, the two partial arrays and the three statistics rows: one whole store. -/
def out6 (x0 : Vec F S10000x128 .f32) (ps pq : Vec F S4x1x128 .f32) (cn mn mm : Vec F S1x128 .f32) : Vec F S10000x128 .f32 :=
  View.canon [⟨rX, k1_pay1 (k1_pay7 (View.ld ps rQ) (View.ld cn rR) (View.ld mn rR))
      (k1_pay8 (View.ld ps rQ) (View.ld pq rQ) (View.ld cn rR) (View.ld mn rR) (View.ld mm rR)) (View.ld x0 rX)⟩]

theorem cover6 (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y

/-! ## The body's triple -/

set_option maxHeartbeats 1000000 in
/-- The body on whole staging memrefs, the six inputs' at their contents and the result's at anything, runs to the
    continuation holding the inputs' as they were and the result's at `out6` of them. -/
theorem sound_kernel1 (c : Dev nD) (E : Set ℕ) (i : grid1.Coords)
    (arg2 : Memref sig .tc .vmem S10000x128 .f32) (harg2 : arg2.IsWhole) (arg3 : Memref sig .tc .vmem S4x1x128 .f32) (harg3 : arg3.IsWhole)
    (arg4 : Memref sig .tc .vmem S4x1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S10000x128 .f32) (harg8 : arg8.IsWhole)
    (x0 : Vec F S10000x128 .f32) (ps pq : Vec F S4x1x128 .f32) (cn mn mm : Vec F S1x128 .f32) (K : PUnit → sProp 𝕄) :
    iprop(owns (c : Thread nD τ) arg2 fullShare x0 ∗ owns (c : Thread nD τ) arg3 fullShare ps ∗ owns (c : Thread nD τ) arg4 fullShare pq
        ∗ owns (c : Thread nD τ) arg5 fullShare cn ∗ owns (c : Thread nD τ) arg6 fullShare mn ∗ owns (c : Thread nD τ) arg7 fullShare mm
        ∗ (∃ d, owns (c : Thread nD τ) arg8 fullShare d)
        ∗ (iprop(owns (c : Thread nD τ) arg2 fullShare x0 ∗ owns (c : Thread nD τ) arg3 fullShare ps ∗ owns (c : Thread nD τ) arg4 fullShare pq
            ∗ owns (c : Thread nD τ) arg5 fullShare cn ∗ owns (c : Thread nD τ) arg6 fullShare mn ∗ owns (c : Thread nD τ) arg7 fullShare mm
            ∗ owns (c : Thread nD τ) arg8 fullShare (out6 x0 ps pq cn mn mm)) -∗ K ⟨⟩))
      ⊢ wp frame (wpE (defs₀ (F := F)) Variants.none c none) E
          (cc1_vnorm_apply i arg2 harg2 arg3 harg3 arg4 harg4 arg5 harg5 arg6 harg6 arg7 harg7 arg8 harg8) K := by
  simp only [cc1_vnorm_apply_eq_skeleton]; unfold cc1_vnorm_apply_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

section Data
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's index
    has not moved), for any proof data over `V` whose body leaves the block in place: one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and the result's at `out6` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Data

end Cert.Kernel.Apply

end
-- ==== Proof.K.Run.lean ====
/-
  THE RUN of the kernel program: @main is region 0 (the statistics pass), a stretch of three host reshapes (count, mean
  and m2 as rows), and region 1 (the normalising pass). The buffers' contents at the four boundaries are a fold from the
  launch memory: a region leaves each of its arrays at what its write-backs made of it and every other buffer as it found
  it; the stretch applies its operations. Each region is a segment over the thread state "every unscoped buffer at the
  boundary's contents, the generator register at some state, nothing owed", the stretch a host segment, and the launch
  over the three gives: every weakly fair execution terminates, and every unscoped buffer ends at the last boundary's
  contents. Read off that: the arguments end as launched, and the result array at what region 1's write-backs made of
  it. Generic in the float instance.
-/
import proofs.«173743_g90340342104516_pilotgen1_308_7_alg».proof.Proof.K.StatsOblig
import proofs.«173743_g90340342104516_pilotgen1_308_7_alg».proof.Proof.K.Apply
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Stats Cert.Kernel.Apply

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three reshapes (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The reshapes write none of a given buffer that is not one of their three results. -/
theorem W2_of_ne (c : Dev nD) (b : Ref sig .tc) (h1 : b ≠ main_v1) (h2 : b ≠ main_v2) (h3 : b ≠ main_v3) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2, StableHlo.devRef_ne_of_ne h3⟩))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem reshapes_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub reshapes_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Run

end
-- ==== Proof.K.RunRead.lean ====
/-
  The boundary contents read back. Region 1 finds x as launched (nothing before it writes x), the two partial arrays at
  what region 0's write-backs made of them, and count, mean and m2 as one-row reshapes of the launched vectors; after it
  the result array holds what region 1's write-backs made of it, and the four arguments hold what was launched.
  Generic in the float instance.
-/
import proofs.«173743_g90340342104516_pilotgen1_308_7_alg».proof.Proof.K.Run
import Idealize.ShloMosaic.Lib.StableHlo.Run

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Stats Cert.Kernel.Apply

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What region 1 finds -/

/-- x, as region 1 finds it, is x as launched. -/
theorem V2_arg0 (c : Dev nD) : V2 m ρ c main_arg0 = m ((c : Thread nD τ).loc main_arg0) :=
  calc W2 m ρ c (Proc.devRef .tc main_arg0)
    _ = W1 m ρ c (Proc.devRef .tc main_arg0) := W2_of_ne m ρ c main_arg0 (by decide) (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The partial arrays, as region 1 finds them, are what region 0's write-backs left. -/
theorem V2_v0_0 (c : Dev nD) : V2 m ρ c main_v0_0 = (dat0 (V0 m ρ) c).arrAt 1 cfg0.N :=
  (W2_of_ne m ρ c main_v0_0 (by decide) (by decide) (by decide)).trans (W1_arr m ρ c 1)
theorem V2_v0_1 (c : Dev nD) : V2 m ρ c main_v0_1 = (dat0 (V0 m ρ) c).arrAt 2 cfg0.N :=
  (W2_of_ne m ρ c main_v0_1 (by decide) (by decide) (by decide)).trans (W1_arr m ρ c 2)

/-- A launched vector no region touches reaches the reshapes as launched. -/
theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl
theorem W1_arg3 (c : Dev nD) : W1 m ρ c (Proc.devRef .tc main_arg3) = m ((c : Thread nD τ).loc main_arg3) :=
  (W1_of_ne m ρ c main_arg3 (by decide)).trans rfl

/-- count, mean and m2, as region 1 finds them: the launched vectors as one-row arrays. -/
theorem V2_v1 (c : Dev nD) : V2 m ρ c main_v1 = shapeCast S1x128 (m ((c : Thread nD τ).loc main_arg1)) shapeCasts_S128_S1x128 := by
  show StableHlo.after hostOps1 (W1 m ρ c) (Proc.devRef .tc main_v1) = _
  after_results
  rw [W1_arg1]
  rfl
theorem V2_v2 (c : Dev nD) : V2 m ρ c main_v2 = shapeCast S1x128 (m ((c : Thread nD τ).loc main_arg2)) shapeCasts_S128_S1x128 := by
  show StableHlo.after hostOps1 (W1 m ρ c) (Proc.devRef .tc main_v2) = _
  after_results
  rw [W1_arg2]
  rfl
theorem V2_v3 (c : Dev nD) : V2 m ρ c main_v3 = shapeCast S1x128 (m ((c : Thread nD τ).loc main_arg3)) shapeCasts_S128_S1x128 := by
  show StableHlo.after hostOps1 (W1 m ρ c) (Proc.devRef .tc main_v3) = _
  after_results
  rw [W1_arg3]
  rfl

/-! ## What the run ends at -/

/-- The result array ends at what region 1's write-backs made of it. -/
theorem W3_v4 (c : Dev nD) : W3 m ρ c (Proc.devRef .tc main_v4) = (dat1 (V2 m ρ) c).arrAt 6 cfg1.N := W3_arr m ρ c 6

/-- The arguments end as launched. -/
theorem W3_arg0 (c : Dev nD) : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (V2_arg0 m ρ c)
theorem W3_arg1 (c : Dev nD) : W3 m ρ c (Proc.devRef .tc main_arg1) = m ((c : Thread nD τ).loc main_arg1) :=
  (W3_of_ne m ρ c main_arg1 (by decide)).trans ((W2_of_ne m ρ c main_arg1 (by decide) (by decide) (by decide)).trans (W1_arg1 m ρ c))
theorem W3_arg2 (c : Dev nD) : W3 m ρ c (Proc.devRef .tc main_arg2) = m ((c : Thread nD τ).loc main_arg2) :=
  (W3_of_ne m ρ c main_arg2 (by decide)).trans ((W2_of_ne m ρ c main_arg2 (by decide) (by decide) (by decide)).trans (W1_arg2 m ρ c))
theorem W3_arg3 (c : Dev nD) : W3 m ρ c (Proc.devRef .tc main_arg3) = m ((c : Thread nD τ).loc main_arg3) :=
  (W3_of_ne m ρ c main_arg3 (by decide)).trans ((W2_of_ne m ρ c main_arg3 (by decide) (by decide) (by decide)).trans (W1_arg3 m ρ c))

/-- THE FRAME: every weakly fair execution of @main terminates, nothing faulting, and the four arguments end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg0 m ρ c),
     (h c _ (mem_uc main_arg1 (by decide))).trans (W3_arg1 m ρ c),
     (h c _ (mem_uc main_arg2 (by decide))).trans (W3_arg2 m ρ c),
     (h c _ (mem_uc main_arg3 (by decide))).trans (W3_arg3 m ρ c)⟩) (run_all m ρ)

/-- THE RUN WITH THE RESULT NAMED: as the frame, and the result array ends at what region 1's write-backs made of it. -/
theorem run_value : θ_run defs (onTc (τ := τ) (main (F := F))) ⟨m, fun _ => 0, ρ⟩ (fun r => ∀ c : Dev nD,
      r.2.mem ((c.tc : Thread nD τ).loc main_v4) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (W3_v4 m ρ c),
     (h c _ (mem_uc main_arg0 (by decide))).trans (W3_arg0 m ρ c),
     (h c _ (mem_uc main_arg1 (by decide))).trans (W3_arg1 m ρ c),
     (h c _ (mem_uc main_arg2 (by decide))).trans (W3_arg2 m ρ c),
     (h c _ (mem_uc main_arg3 (by decide))).trans (W3_arg3 m ρ c)⟩) (run_all m ρ)

end Cert.Kernel.Run

end
-- ==== Proof.KI.Stats.lean ====
/-
  REGION 0 of the kernel program: the statistics pass. Its grid is 4 × 25; point t = 25·i + s reads rows
  [10000·t, 10000·(t+1)) of x (its block of window 0) and keeps, in the staging buffers of windows 1 and 2 (block i of
  the two partial arrays), the column sums and the column sums of squares of the blocks seen so far for this i:
  at s = 0 the buffers are SET to the block's sums, at s ≠ 0 the block's sums are ADDED to what the point before
  left; the buffers are written back after s = 24. This module states what each buffer holds after every point
  (`outsAt0`), the proof data of the pipeline over entry contents `V`, and the body's obligation. Generic in the
  float instance.
-/
import proofs.«173743_g90340342104516_pilotgen1_308_7_alg».proof.Proof.Gen.KernelIdeal.Launch
import proofs.«173743_g90340342104516_pilotgen1_308_7_alg».proof.Proof.Gen.KernelIdeal.Skeleton
import proofs.«173743_g90340342104516_pilotgen1_308_7_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions on the inner coordinate, and liveness -/

/-- The first branch (`s = 0`) is taken exactly at the points ≡ 0 (mod 25). -/
theorem hcond1 : ∀ t : Fin cfg0.N, k0_cond1 (grid0.coords t) = 1#1 ↔ t.val % 25 = 0 :=
  (by decide +kernel : ∀ t : Fin grid0.N, k0_cond1 (grid0.coords t) = 1#1 ↔ t.val % 25 = 0)
/-- The second branch (`s ≠ 0`) is taken exactly at the other points. -/
theorem hcond2 : ∀ t : Fin cfg0.N, k0_cond2 (grid0.coords t) = 1#1 ↔ ¬ t.val % 25 = 0 :=
  (by decide +kernel : ∀ t : Fin grid0.N, k0_cond2 (grid0.coords t) = 1#1 ↔ ¬ t.val % 25 = 0)

/-- One of the two branches stores at every coordinate: no window is idle anywhere. -/
theorem live0 (w : Fin cfg0.W) (i : grid0.Coords) : cfg0.idle w i = false := by
  have key : ∀ s : Fin 25,
      (!(Scalar.cmpi .ne (Scalar.extui (Scalar.cmpi .eq (BitVec.ofNat 32 s.val) 0#32)) 0#32 == 1#1)
        && !(Scalar.cmpi .ne (Scalar.extui (Scalar.cmpi .ne (BitVec.ofNat 32 s.val) 0#32)) 0#32 == 1#1)) = false := by
    decide
  match w with
  | ⟨0, _⟩ => rfl
  | ⟨1, _⟩ => exact key (i 1)
  | ⟨2, _⟩ => exact key (i 1)

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (live0 0) (fun _ _ _ => rfl) (fun t => by rw [hafter]; unfold Dat.blockOf iblk0; rw [hA]; try rfl) t d).trans
    (by unfold Dat.fetched Dat.blockOf iblk0; rw [hA]; try rfl)

/-! ## What the body leaves in the two partial buffers, by case -/

/-- The whole input block, and the whole partial buffer. -/
abbrev rX : Rect S10000x128 := Rect.unit (s := S10000x128) ![0, 0] S10000x128.size inb_S10000x128_S10000x128_0_0
abbrev rP : Rect S1x1x128 := Rect.unit (s := S1x1x128) ![0, 0, 0] S1x1x128.size inb_S1x1x128_S1x1x128_0_0_0

/-- At `s = 0`: the block's column sums, and its column sums of squares. -/
def outA_1 (x0 : Vec F S10000x128 .f32) : Vec F S1x1x128 .f32 := View.canon [⟨rP, k0_pay3 (View.ld x0 rX)⟩]
def outA_2 (x0 : Vec F S10000x128 .f32) : Vec F S1x1x128 .f32 := View.canon [⟨rP, k0_pay4 (View.ld x0 rX)⟩]
/-- At `s ≠ 0`: the same added to what the buffer held (`p`). -/
def outB_1 (x0 : Vec F S10000x128 .f32) (p : Vec F S1x1x128 .f32) : Vec F S1x1x128 .f32 :=
  View.canon [⟨rP, k0_pay5 (View.ld x0 rX) (View.ld p rP)⟩]
def outB_2 (x0 : Vec F S10000x128 .f32) (p : Vec F S1x1x128 .f32) : Vec F S1x1x128 .f32 :=
  View.canon [⟨rP, k0_pay6 (View.ld x0 rX) (View.ld p rP)⟩]

/-- One whole-buffer store covers the buffer. -/
theorem coverP (p0 : Vec F S1x1x128 .f32) (y : S1x1x128.Idx) :
    ∃ pc ∈ ([⟨rP, p0⟩] : List (View.Piece (Elt F) S1x1x128 .f32)), y ∈ pc.1.set :=
  View.cover_of_tiled [⟨rP, p0⟩] S1x1x128.size (by rfl) y

end Region

/-! ## The body's triple, by case -/

set_option maxHeartbeats 1000000 in
/-- The body at a point with `s = 0`: the input at `x0`, the partial buffers at anything; they end at the block's sums. -/
theorem sound_kernelA (c : Dev nD) (E : Set ℕ) (i : grid0.Coords) (hc1 : k0_cond1 i = 1#1) (hc2 : ¬ k0_cond2 i = 1#1)
    (arg2 : Memref sig .tc .vmem S10000x128 .f32) (harg2 : arg2.IsWhole) (arg3 : Memref sig .tc .vmem S1x1x128 .f32) (harg3 : arg3.IsWhole)
    (arg4 : Memref sig .tc .vmem S1x1x128 .f32) (harg4 : arg4.IsWhole)
    (x0 : Vec F S10000x128 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (outA_1 x0)
            ∗ owns (c : Thread nD τ) arg4 fullShare (outA_2 x0)) -∗ K ⟨⟩))
      ⊢ wp frame (wpE (defs₀ (F := F)) Variants.none c none) E (cc0_vnorm_stats i arg2 harg2 arg3 harg3 arg4 harg4) K := by
  simp only [cc0_vnorm_stats_eq_skeleton]; unfold cc0_vnorm_stats_skel
  unfold owns
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverP _)
  iexists _; isplitr
  swap; · iexact H2
  ipureintro
  exact View.read_writes_eq_canon _ _ _ (coverP _)

set_option maxHeartbeats 1000000 in
/-- The body at a point with `s ≠ 0`: the input at `x0`, the partial buffers at `p1`, `p2`; they end at the sums added. -/
theorem sound_kernelB (c : Dev nD) (E : Set ℕ) (i : grid0.Coords) (hc1 : ¬ k0_cond1 i = 1#1) (hc2 : k0_cond2 i = 1#1)
    (arg2 : Memref sig .tc .vmem S10000x128 .f32) (harg2 : arg2.IsWhole) (arg3 : Memref sig .tc .vmem S1x1x128 .f32) (harg3 : arg3.IsWhole)
    (arg4 : Memref sig .tc .vmem S1x1x128 .f32) (harg4 : arg4.IsWhole)
    (x0 : Vec F S10000x128 .f32) (p1 p2 : Vec F S1x1x128 .f32) (K : PUnit → sProp 𝕄) :
    iprop(owns (c : Thread nD τ) arg2 fullShare x0 ∗ owns (c : Thread nD τ) arg3 fullShare p1 ∗ owns (c : Thread nD τ) arg4 fullShare p2
        ∗ (iprop(owns (c : Thread nD τ) arg2 fullShare x0 ∗ owns (c : Thread nD τ) arg3 fullShare (outB_1 x0 p1)
            ∗ owns (c : Thread nD τ) arg4 fullShare (outB_2 x0 p2)) -∗ K ⟨⟩))
      ⊢ wp frame (wpE (defs₀ (F := F)) Variants.none c none) E (cc0_vnorm_stats i arg2 harg2 arg3 harg3 arg4 harg4) K := by
  simp only [cc0_vnorm_stats_eq_skeleton]; unfold cc0_vnorm_stats_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact View.read_writes_eq_canon _ _ _ (coverP _)
  iexists _; isplitr
  swap; · iexact H2
  ipureintro
  exact View.read_writes_eq_canon _ _ _ (coverP _)

/-! ## What the two partial buffers hold after each point -/

section Data
variable (V : (c : Dev nD) → (b : Ref sig .tc) → Buf (Elt F) ((c : Thread nD τ).loc b))

/-- THE ACCUMULATION: after the body at position `n` the two partial buffers hold the block's sums if `n ≡ 0 (mod 25)`,
    else the block's sums added to what position `n - 1` left (the buffers are not written back in between). -/
def outsAt0 (c : Dev nD) : (n : ℕ) → n < cfg0.N → Vec F S1x1x128 .f32 × Vec F S1x1x128 .f32
  | 0, hn => (outA_1 (iblk0 V c 0 ⟨0, hn⟩), outA_2 (iblk0 V c 0 ⟨0, hn⟩))
  | n + 1, hn =>
    if (n + 1) % 25 = 0 then (outA_1 (iblk0 V c 0 ⟨n + 1, hn⟩), outA_2 (iblk0 V c 0 ⟨n + 1, hn⟩))
    else (outB_1 (iblk0 V c 0 ⟨n + 1, hn⟩) (outsAt0 c n (Nat.lt_of_succ_lt hn)).1,
          outB_2 (iblk0 V c 0 ⟨n + 1, hn⟩) (outsAt0 c n (Nat.lt_of_succ_lt hn)).2)

/-- At a point with `s = 0`. -/
theorem outsAt0_A (c : Dev nD) (t : Fin cfg0.N) (h0 : t.val % 25 = 0) :
    outsAt0 V c t.val t.isLt = (outA_1 (iblk0 V c 0 t), outA_2 (iblk0 V c 0 t)) := by
  obtain ⟨n, hn⟩ := t
  cases n with
  | zero => exact rfl
  | succ n => exact (if_pos h0).trans rfl

/-- At a point with `s ≠ 0`. -/
theorem outsAt0_B (c : Dev nD) (t : Fin cfg0.N) (h0 : ¬ t.val % 25 = 0) :
    outsAt0 V c t.val t.isLt
      = (outB_1 (iblk0 V c 0 t) (outsAt0 V c (t.val - 1) (Nat.lt_of_le_of_lt (Nat.sub_le _ _) t.isLt)).1,
         outB_2 (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 0 on core `c`: the arrays as the region finds them; after the body at point `t` the
    input's buffer at its block and the partial buffers at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

/-- At a point with `s ≠ 0` a partial buffer holds what the body left at the point before: the point is not the first
    and the buffer was not written back in between (write-backs happen after `s = 24` only). -/
theorem before0_1_B (c : Dev nD) (t : Fin cfg0.N) (h0 : ¬ t.val % 25 = 0) (d) :
    (dat0 V c).before 1 t d = (outsAt0 V c (t.val - 1) (Nat.lt_of_le_of_lt (Nat.sub_le _ _) t.isLt)).1 := by
  have hN : t.val < 100 := lt_of_lt_of_eq t.isLt (show cfg0.N = 100 from N_0)
  rw [Dat.before_out_kept _ 1 rfl t (by omega) (Bool.eq_false_iff.mpr fun h => by have := (flush0_1 _).mp h; dsimp only at this; omega)
    (live0 1) (fun _ _ => rfl)]
  dsimp only [dat0]
theorem before0_2_B (c : Dev nD) (t : Fin cfg0.N) (h0 : ¬ t.val % 25 = 0) (d) :
    (dat0 V c).before 2 t d = (outsAt0 V c (t.val - 1) (Nat.lt_of_le_of_lt (Nat.sub_le _ _) t.isLt)).2 := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (live0 2) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the input's buffer holds its block; the point's inner coordinate says which branch runs;
    at `s ≠ 0` the partial buffers hold what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val % 25 = 0
  · rw [outsAt0_A V c t h0]
    iintro ⟨HΦ, Ho, ⟨%d0, H0⟩, ⟨%d1, H1⟩, ⟨%d2, H2⟩⟩
    iapply (sound_kernelA c Set.univ (grid0.coords t) ((hcond1 t).mpr h0) (fun h => ((hcond2 t).mp h) h0) _ _ _ _ _ _ (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt0_B V c t h0]
    simp only [before0_1_B V c t h0, before0_2_B V c t h0]
    iintro ⟨HΦ, Ho, ⟨%d0, H0⟩, ⟨%d1, H1⟩, ⟨%d2, H2⟩⟩
    iapply (sound_kernelB c Set.univ (grid0.coords t) (fun h => h0 ((hcond1 t).mp h)) ((hcond2 t).mpr h0) _ _ _ _ _ _ (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Data

end Cert.KernelIdeal.Stats

end
-- ==== Proof.KI.StatsOblig.lean ====
/-
  REGION 0, the body obligation: at every point of the grid one of the body's two branches stores into both partial
  buffers, so no window is idle anywhere and what the library asks of each buffer after the body is the proof data's
  `after`; the body's run at a point (Stats.lean) gives exactly that.
-/
import proofs.«173743_g90340342104516_pilotgen1_308_7_alg».proof.Proof.KI.Stats

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Data
variable (V : (c : Dev nD) → (b : Ref sig .tc) → Buf (Elt F) ((c : Thread nD τ).loc b))

set_option maxHeartbeats 1000000 in
/-- The library's body obligation, at every point: no window is idle anywhere (`live0`), so what each buffer must
    hold after the body is the proof data's `after`. -/
theorem body_obligation0 (c : Dev nD) : BodyObligation (dat0 (F := F) V c) (defs₀ (F := F)) Variants.none () Set.univ := fun t => by
  rw [bigSep_W0, bigSep_W0]
  have h1 : cfg0.idle 1 (cfg0.grid.coords t) = false := live0 1 _
  rw [h1]
  exact sound_body0 V c t

end Data

end Cert.KernelIdeal.Stats

end
-- ==== Proof.KI.Apply.lean ====
/-
  REGION 1 of the kernel program: the normalising pass. Its grid is 4 × 25; point t reads rows
  [10000·t, 10000·(t+1)) of x (window 0), the two whole partial arrays (windows 1, 2) and the three running
  statistics as rows (windows 3, 4, 5), and writes the same rows of the result (window 6): every entry minus the new
  mean, times the reciprocal square root of the new variance. The body reads each buffer whole and stores the result
  block whole, at every point alike. This module states what the result buffer holds after a point, the proof data of the
  pipeline over entry contents `V`, and the body's obligation. Generic in the float instance.
-/
import proofs.«173743_g90340342104516_pilotgen1_308_7_alg».proof.Proof.Gen.KernelIdeal.Launch
import proofs.«173743_g90340342104516_pilotgen1_308_7_alg».proof.Proof.Gen.KernelIdeal.Skeleton
import proofs.«173743_g90340342104516_pilotgen1_308_7_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Apply

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses and what it leaves in the result buffer -/

abbrev rX : Rect S10000x128 := Rect.unit (s := S10000x128) ![0, 0] S10000x128.size inb_S10000x128_S10000x128_0_0
abbrev rQ : Rect S4x1x128 := Rect.unit (s := S4x1x128) ![0, 0, 0] S4x1x128.size inb_S4x1x128_S4x1x128_0_0_0
abbrev rR : Rect S1x128 := Rect.unit (s := S1x128) ![0, 0] S1x128.size inb_S1x128_S1x128_0_0

/-- The result block from the x block, the two partial arrays and the three statistics rows: one whole store. -/
def out6 (x0 : Vec F S10000x128 .f32) (ps pq : Vec F S4x1x128 .f32) (cn mn mm : Vec F S1x128 .f32) : Vec F S10000x128 .f32 :=
  View.canon [⟨rX, k1_pay1 (k1_pay7 (View.ld ps rQ) (View.ld cn rR) (View.ld mn rR))
      (k1_pay8 (View.ld ps rQ) (View.ld pq rQ) (View.ld cn rR) (View.ld mn rR) (View.ld mm rR)) (View.ld x0 rX)⟩]

theorem cover6 (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y

/-! ## The body's triple -/

set_option maxHeartbeats 1000000 in
/-- The body on whole staging memrefs, the six inputs' at their contents and the result's at anything, runs to the
    continuation holding the inputs' as they were and the result's at `out6` of them. -/
theorem sound_kernel1 (c : Dev nD) (E : Set ℕ) (i : grid1.Coords)
    (arg2 : Memref sig .tc .vmem S10000x128 .f32) (harg2 : arg2.IsWhole) (arg3 : Memref sig .tc .vmem S4x1x128 .f32) (harg3 : arg3.IsWhole)
    (arg4 : Memref sig .tc .vmem S4x1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S10000x128 .f32) (harg8 : arg8.IsWhole)
    (x0 : Vec F S10000x128 .f32) (ps pq : Vec F S4x1x128 .f32) (cn mn mm : Vec F S1x128 .f32) (K : PUnit → sProp 𝕄) :
    iprop(owns (c : Thread nD τ) arg2 fullShare x0 ∗ owns (c : Thread nD τ) arg3 fullShare ps ∗ owns (c : Thread nD τ) arg4 fullShare pq
        ∗ owns (c : Thread nD τ) arg5 fullShare cn ∗ owns (c : Thread nD τ) arg6 fullShare mn ∗ owns (c : Thread nD τ) arg7 fullShare mm
        ∗ (∃ d, owns (c : Thread nD τ) arg8 fullShare d)
        ∗ (iprop(owns (c : Thread nD τ) arg2 fullShare x0 ∗ owns (c : Thread nD τ) arg3 fullShare ps ∗ owns (c : Thread nD τ) arg4 fullShare pq
            ∗ owns (c : Thread nD τ) arg5 fullShare cn ∗ owns (c : Thread nD τ) arg6 fullShare mn ∗ owns (c : Thread nD τ) arg7 fullShare mm
            ∗ owns (c : Thread nD τ) arg8 fullShare (out6 x0 ps pq cn mn mm)) -∗ K ⟨⟩))
      ⊢ wp frame (wpE (defs₀ (F := F)) Variants.none c none) E
          (cc1_vnorm_apply i arg2 harg2 arg3 harg3 arg4 harg4 arg5 harg5 arg6 harg6 arg7 harg7 arg8 harg8) K := by
  simp only [cc1_vnorm_apply_eq_skeleton]; unfold cc1_vnorm_apply_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

section Data
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's index
    has not moved), for any proof data over `V` whose body leaves the block in place: one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and the result's at `out6` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Data

end Cert.KernelIdeal.Apply

end
-- ==== Proof.KI.Run.lean ====
/-
  THE RUN of the kernel program: @main is region 0 (the statistics pass), a stretch of three host reshapes (count, mean
  and m2 as rows), and region 1 (the normalising pass). The buffers' contents at the four boundaries are a fold from the
  launch memory: a region leaves each of its arrays at what its write-backs made of it and every other buffer as it found
  it; the stretch applies its operations. Each region is a segment over the thread state "every unscoped buffer at the
  boundary's contents, the generator register at some state, nothing owed", the stretch a host segment, and the launch
  over the three gives: every weakly fair execution terminates, and every unscoped buffer ends at the last boundary's
  contents. Read off that: the arguments end as launched, and the result array at what region 1's write-backs made of
  it. Generic in the float instance.
-/
import proofs.«173743_g90340342104516_pilotgen1_308_7_alg».proof.Proof.KI.StatsOblig
import proofs.«173743_g90340342104516_pilotgen1_308_7_alg».proof.Proof.KI.Apply
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Stats Cert.KernelIdeal.Apply

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three reshapes (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The reshapes write none of a given buffer that is not one of their three results. -/
theorem W2_of_ne (c : Dev nD) (b : Ref sig .tc) (h1 : b ≠ main_v1) (h2 : b ≠ main_v2) (h3 : b ≠ main_v3) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2, StableHlo.devRef_ne_of_ne h3⟩))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem reshapes_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub reshapes_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Run

end
-- ==== Proof.KI.RunRead.lean ====
/-
  The boundary contents read back. Region 1 finds x as launched (nothing before it writes x), the two partial arrays at
  what region 0's write-backs made of them, and count, mean and m2 as one-row reshapes of the launched vectors; after it
  the result array holds what region 1's write-backs made of it, and the four arguments hold what was launched.
  Generic in the float instance.
-/
import proofs.«173743_g90340342104516_pilotgen1_308_7_alg».proof.Proof.KI.Run
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Stats Cert.KernelIdeal.Apply

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What region 1 finds -/

/-- x, as region 1 finds it, is x as launched. -/
theorem V2_arg0 (c : Dev nD) : V2 m ρ c main_arg0 = m ((c : Thread nD τ).loc main_arg0) :=
  calc W2 m ρ c (Proc.devRef .tc main_arg0)
    _ = W1 m ρ c (Proc.devRef .tc main_arg0) := W2_of_ne m ρ c main_arg0 (by decide) (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The partial arrays, as region 1 finds them, are what region 0's write-backs left. -/
theorem V2_v0_0 (c : Dev nD) : V2 m ρ c main_v0_0 = (dat0 (V0 m ρ) c).arrAt 1 cfg0.N :=
  (W2_of_ne m ρ c main_v0_0 (by decide) (by decide) (by decide)).trans (W1_arr m ρ c 1)
theorem V2_v0_1 (c : Dev nD) : V2 m ρ c main_v0_1 = (dat0 (V0 m ρ) c).arrAt 2 cfg0.N :=
  (W2_of_ne m ρ c main_v0_1 (by decide) (by decide) (by decide)).trans (W1_arr m ρ c 2)

/-- A launched vector no region touches reaches the reshapes as launched. -/
theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl
theorem W1_arg3 (c : Dev nD) : W1 m ρ c (Proc.devRef .tc main_arg3) = m ((c : Thread nD τ).loc main_arg3) :=
  (W1_of_ne m ρ c main_arg3 (by decide)).trans rfl

/-- count, mean and m2, as region 1 finds them: the launched vectors as one-row arrays. -/
theorem V2_v1 (c : Dev nD) : V2 m ρ c main_v1 = shapeCast S1x128 (m ((c : Thread nD τ).loc main_arg1)) shapeCasts_S128_S1x128 := by
  show StableHlo.after hostOps1 (W1 m ρ c) (Proc.devRef .tc main_v1) = _
  after_results
  rw [W1_arg1]
  rfl
theorem V2_v2 (c : Dev nD) : V2 m ρ c main_v2 = shapeCast S1x128 (m ((c : Thread nD τ).loc main_arg2)) shapeCasts_S128_S1x128 := by
  show StableHlo.after hostOps1 (W1 m ρ c) (Proc.devRef .tc main_v2) = _
  after_results
  rw [W1_arg2]
  rfl
theorem V2_v3 (c : Dev nD) : V2 m ρ c main_v3 = shapeCast S1x128 (m ((c : Thread nD τ).loc main_arg3)) shapeCasts_S128_S1x128 := by
  show StableHlo.after hostOps1 (W1 m ρ c) (Proc.devRef .tc main_v3) = _
  after_results
  rw [W1_arg3]
  rfl

/-! ## What the run ends at -/

/-- The result array ends at what region 1's write-backs made of it. -/
theorem W3_v4 (c : Dev nD) : W3 m ρ c (Proc.devRef .tc main_v4) = (dat1 (V2 m ρ) c).arrAt 6 cfg1.N := W3_arr m ρ c 6

/-- The arguments end as launched. -/
theorem W3_arg0 (c : Dev nD) : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (V2_arg0 m ρ c)
theorem W3_arg1 (c : Dev nD) : W3 m ρ c (Proc.devRef .tc main_arg1) = m ((c : Thread nD τ).loc main_arg1) :=
  (W3_of_ne m ρ c main_arg1 (by decide)).trans ((W2_of_ne m ρ c main_arg1 (by decide) (by decide) (by decide)).trans (W1_arg1 m ρ c))
theorem W3_arg2 (c : Dev nD) : W3 m ρ c (Proc.devRef .tc main_arg2) = m ((c : Thread nD τ).loc main_arg2) :=
  (W3_of_ne m ρ c main_arg2 (by decide)).trans ((W2_of_ne m ρ c main_arg2 (by decide) (by decide) (by decide)).trans (W1_arg2 m ρ c))
theorem W3_arg3 (c : Dev nD) : W3 m ρ c (Proc.devRef .tc main_arg3) = m ((c : Thread nD τ).loc main_arg3) :=
  (W3_of_ne m ρ c main_arg3 (by decide)).trans ((W2_of_ne m ρ c main_arg3 (by decide) (by decide) (by decide)).trans (W1_arg3 m ρ c))

/-- THE FRAME: every weakly fair execution of @main terminates, nothing faulting, and the four arguments end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg0 m ρ c),
     (h c _ (mem_uc main_arg1 (by decide))).trans (W3_arg1 m ρ c),
     (h c _ (mem_uc main_arg2 (by decide))).trans (W3_arg2 m ρ c),
     (h c _ (mem_uc main_arg3 (by decide))).trans (W3_arg3 m ρ c)⟩) (run_all m ρ)

/-- THE RUN WITH THE RESULT NAMED: as the frame, and the result array ends at what region 1's write-backs made of it. -/
theorem run_value : θ_run defs (onTc (τ := τ) (main (F := F))) ⟨m, fun _ => 0, ρ⟩ (fun r => ∀ c : Dev nD,
      r.2.mem ((c.tc : Thread nD τ).loc main_v4) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (W3_v4 m ρ c),
     (h c _ (mem_uc main_arg0 (by decide))).trans (W3_arg0 m ρ c),
     (h c _ (mem_uc main_arg1 (by decide))).trans (W3_arg1 m ρ c),
     (h c _ (mem_uc main_arg2 (by decide))).trans (W3_arg2 m ρ c),
     (h c _ (mem_uc main_arg3 (by decide))).trans (W3_arg3 m ρ c)⟩) (run_all m ρ)

end Cert.KernelIdeal.Run

end
-- ==== Proof.Rows.lean ====
/-
  The rows of x as the statistics pass meets them: 4 chunks × 25 blocks × 10000 rows. Row r of block s of chunk p is
  row (25·p + s)·10000 + r of the array, and every one of the 10^6 rows is met exactly once, so a sum over chunks,
  blocks and rows in turn is the sum over all rows.
-/
import Mathlib.Algebra.BigOperators.Group.Finset.Basic
import Mathlib.Data.Fintype.BigOperators
import Mathlib.Data.EReal.Basic
import Mathlib.Algebra.BigOperators.Group.Finset.Defs
import Mathlib.Logic.Equiv.Defs
import Mathlib.Data.Fintype.Prod
import Mathlib.Tactic.NormNum

noncomputable section

namespace Cert.VNorm

/-- The array row that chunk `p`, block `s`, block row `r` is. -/
def row (p : Fin 4) (s : Fin 25) (r : Fin 10000) : Fin 1000000 :=
  ⟨(p.val * 25 + s.val) * 10000 + r.val, by have := p.isLt; have := s.isLt; have := r.isLt; omega⟩

theorem row_val (p : Fin 4) (s : Fin 25) (r : Fin 10000) : (row p s r).val = (p.val * 25 + s.val) * 10000 + r.val := rfl

/-- Chunk, block and block row of an array row, and back: row k lies in chunk k / 250000, block (k / 10000) mod 25
    of it, block row k mod 10000. -/
def rowEquiv : Fin 4 × Fin 25 × Fin 10000 ≃ Fin 1000000 where
  toFun t := row t.1 t.2.1 t.2.2
  invFun k :=
    (⟨k.val / 250000, by have := k.isLt; omega⟩, ⟨k.val / 10000 % 25, Nat.mod_lt _ (by norm_num)⟩,
      ⟨k.val % 10000, Nat.mod_lt _ (by norm_num)⟩)
  left_inv := by
    rintro ⟨p, s, r⟩
    have hp := p.isLt
    have hs := s.isLt
    have hr := r.isLt
    refine Prod.ext (Fin.ext ?_) (Prod.ext (Fin.ext ?_) (Fin.ext ?_))
    · show ((p.val * 25 + s.val) * 10000 + r.val) / 250000 = p.val
      omega
    · show ((p.val * 25 + s.val) * 10000 + r.val) / 10000 % 25 = s.val
      omega
    · show ((p.val * 25 + s.val) * 10000 + r.val) % 10000 = r.val
      omega
  right_inv := by
    intro k
    have hk := k.isLt
    apply Fin.ext
    show (k.val / 250000 * 25 + k.val / 10000 % 25) * 10000 + k.val % 10000 = k.val
    omega

theorem rowEquiv_apply (p : Fin 4) (s : Fin 25) (r : Fin 10000) : rowEquiv (p, s, r) = row p s r := rfl

/-- Summing chunk by chunk, block by block, row by row is summing over all rows (in any commutative monoid; used at
    the extended reals). -/
theorem sum_rows {M : Type} [AddCommMonoid M] (f : Fin 1000000 → M) :
    ∑ p : Fin 4, ∑ s : Fin 25, ∑ r : Fin 10000, f (row p s r) = ∑ k : Fin 1000000, f k := by
  calc ∑ p : Fin 4, ∑ s : Fin 25, ∑ r : Fin 10000, f (row p s r)
      = ∑ p : Fin 4, ∑ t : Fin 25 × Fin 10000, f (rowEquiv (p, t)) := by
        refine Finset.sum_congr rfl fun p _ => ?_
        rw [Fintype.sum_prod_type]
        simp only [rowEquiv_apply]
    _ = ∑ t : Fin 4 × Fin 25 × Fin 10000, f (rowEquiv t) := (Fintype.sum_prod_type fun t : Fin 4 × Fin 25 × Fin 10000 => f (rowEquiv t)).symm
    _ = ∑ k : Fin 1000000, f k := Equiv.sum_comp rowEquiv f

end Cert.VNorm

end
-- ==== Proof.KI.StatsValue.lean ====
/-
  REGION 0's value, on the extended reals: after the pass, entry (p, 0, j) of the first partial array is the sum of
  column j of x over the 25 blocks × 10000 rows of chunk p, and of the second the sum of the squares; the two arrays
  are stated whole, as functions of the array x the region found.
-/
import proofs.«173743_g90340342104516_pilotgen1_308_7_alg».proof.Proof.KI.Stats
import proofs.«173743_g90340342104516_pilotgen1_308_7_alg».proof.Proof.Rows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.StatsValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Stats Cert.VNorm

variable (V : (c : Dev nD) → (b : Ref sig .tc) → Buf (Elt Ideal) ((c : Thread nD τ).loc b))

/-- The array x as region 0 finds it. -/
abbrev xarr (c : Dev nD) : S1000000x128.Idx → EReal := V c main_arg0

theorem hz3 : (![0, 0, 0] : Fin 3 → Nat) = fun _ => 0 := funext fun a => by fin_cases a <;> rfl
theorem hz2 : (![0, 0] : Fin 2 → Nat) = fun _ => 0 := funext fun a => by fin_cases a <;> rfl

/-- Over lane b, the source index with row r put back is (r, b). -/
theorem lift_row (h : S10000x128.Reduces [0] S128) (b : Fin 128) (r : Fin 10000) :
    h.lift (ix1 b) r = ix2 r b := by
  funext c
  apply Fin.ext
  match c with
  | ⟨0, _⟩ => rfl
  | ⟨1, _⟩ => rfl

/-- The column sum of a block at lane b. -/
theorem colsum_apply (x0 : Vec Ideal S10000x128 .f32) (b : Fin 128) :
    k0_pay1 x0 (ix2 (0 : Fin 1) b) = ∑ r : Fin 10000, x0 (ix2 r b) := by
  unfold k0_pay1
  rw [shapeCast_a_1a_apply]
  refine (Ideal.multiReduction_add_single (s := S10000x128) (t := S128) (a := 0) x0 _ reduces_S10000x128_S128 _ _ (ix1 b)).trans ?_
  exact Finset.sum_congr rfl fun r _ => congrArg x0 (lift_row _ b r)

/-- The column sum of squares of a block at lane b. -/
theorem colsumsq_apply (x0 : Vec Ideal S10000x128 .f32) (b : Fin 128) :
    k0_pay2 x0 (ix2 (0 : Fin 1) b) = ∑ r : Fin 10000, x0 (ix2 r b) * x0 (ix2 r b) := by
  unfold k0_pay2
  rw [shapeCast_a_1a_apply]
  refine (Ideal.multiReduction_add_single (s := S10000x128) (t := S128) (a := 0) (mulf x0 x0) _ reduces_S10000x128_S128 _ _ (ix1 b)).trans ?_
  exact Finset.sum_congr rfl fun r _ => congrArg (fun i => x0 i * x0 i) (lift_row _ b r)

/-- What the body stores at s = 0, at lane b: the block's column sum, and its column sum of squares. -/
theorem pay3_apply (x0 : Vec Ideal S10000x128 .f32) (b : Fin 128) :
    k0_pay3 x0 (ix3 (0 : Fin 1) (0 : Fin 1) b) = ∑ r : Fin 10000, x0 (ix2 r b) := by
  unfold k0_pay3
  rw [shapeCast_ab_1ab_apply, colsum_apply]

theorem pay4_apply (x0 : Vec Ideal S10000x128 .f32) (b : Fin 128) :
    k0_pay4 x0 (ix3 (0 : Fin 1) (0 : Fin 1) b) = ∑ r : Fin 10000, x0 (ix2 r b) * x0 (ix2 r b) := by
  unfold k0_pay4
  rw [shapeCast_ab_1ab_apply, colsumsq_apply]

/-- What the body stores at s ≠ 0, at lane b: what the buffer held plus the block's column sum (of squares). -/
theorem pay5_apply (x0 : Vec Ideal S10000x128 .f32) (p : Vec Ideal S1x1x128 .f32) (b : Fin 128) :
    k0_pay5 x0 p (ix3 (0 : Fin 1) (0 : Fin 1) b) = p (ix3 (0 : Fin 1) (0 : Fin 1) b) + ∑ r : Fin 10000, x0 (ix2 r b) := by
  unfold k0_pay5
  rw [shapeCast_ab_1ab_apply, addf_apply, shapeCast_1ab_ab_apply, colsum_apply]

theorem pay6_apply (x0 : Vec Ideal S10000x128 .f32) (p : Vec Ideal S1x1x128 .f32) (b : Fin 128) :
    k0_pay6 x0 p (ix3 (0 : Fin 1) (0 : Fin 1) b)
      = p (ix3 (0 : Fin 1) (0 : Fin 1) b) + ∑ r : Fin 10000, x0 (ix2 r b) * x0 (ix2 r b) := by
  unfold k0_pay6
  rw [shapeCast_ab_1ab_apply, addf_apply, shapeCast_1ab_ab_apply, colsumsq_apply]

/-- The four buffer contents the body leaves, at lane b. -/
theorem outA_1_apply (x0 : Vec Ideal S10000x128 .f32) (b : Fin 128) :
    outA_1 x0 (ix3 (0 : Fin 1) (0 : Fin 1) b) = ∑ r : Fin 10000, x0 (ix2 r b) := by
  unfold outA_1
  rw [View.canon_unit_zero hz3]
  simp only [View.ld_unit_zero (S := S10000x128) hz2]
  exact pay3_apply x0 b

theorem outA_2_apply (x0 : Vec Ideal S10000x128 .f32) (b : Fin 128) :
    outA_2 x0 (ix3 (0 : Fin 1) (0 : Fin 1) b) = ∑ r : Fin 10000, x0 (ix2 r b) * x0 (ix2 r b) := by
  unfold outA_2
  rw [View.canon_unit_zero hz3]
  simp only [View.ld_unit_zero (S := S10000x128) hz2]
  exact pay4_apply x0 b

theorem outB_1_apply (x0 : Vec Ideal S10000x128 .f32) (p : Vec Ideal S1x1x128 .f32) (b : Fin 128) :
    outB_1 x0 p (ix3 (0 : Fin 1) (0 : Fin 1) b) = p (ix3 (0 : Fin 1) (0 : Fin 1) b) + ∑ r : Fin 10000, x0 (ix2 r b) := by
  unfold outB_1
  rw [View.canon_unit_zero hz3]
  simp only [View.ld_unit_zero (S := S10000x128) hz2, View.ld_unit_zero (S := S1x1x128) hz3]
  exact pay5_apply x0 p b

theorem outB_2_apply (x0 : Vec Ideal S10000x128 .f32) (p : Vec Ideal S1x1x128 .f32) (b : Fin 128) :
    outB_2 x0 p (ix3 (0 : Fin 1) (0 : Fin 1) b)
      = p (ix3 (0 : Fin 1) (0 : Fin 1) b) + ∑ r : Fin 10000, x0 (ix2 r b) * x0 (ix2 r b) := by
  unfold outB_2
  rw [View.canon_unit_zero hz3]
  simp only [View.ld_unit_zero (S := S10000x128) hz2, View.ld_unit_zero (S := S1x1x128) hz3]
  exact pay6_apply x0 p b

/-- Window 0's block index at point t is (t, 0). -/
theorem hidx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The input block at point t, at its literal shape. -/
abbrev xblk (c : Dev nD) (t : Fin cfg0.N) : S10000x128.Idx → EReal := iblk0 V c 0 t

/-- The input block at point t, at (r, b), is x at row 10000·t + r, lane b. -/
theorem xblk_apply (c : Dev nD) (t : Fin cfg0.N) (r : Fin 10000) (b : Fin 128) (h : t.val * 10000 + r.val < 1000000) :
    xblk V c t (ix2 r b) = xarr V c (ix2 ⟨t.val * 10000 + r.val, h⟩ b) := by
  unfold xblk iblk0
  rw [View.read_apply]
  show V c main_arg0 _ = V c main_arg0 _
  congr 1
  funext a
  apply Fin.ext
  match a with
  | ⟨0, _⟩ => show win0_0.index t 0 * 10000 + 1 * r.val = t.val * 10000 + r.val; rw [(hidx0 t).1]; omega
  | ⟨1, _⟩ => show win0_0.index t 1 * 128 + 1 * b.val = b.val; rw [(hidx0 t).2]; omega

/-- Block n's column sum at lane b, as a function of every natural n (zero past the last block). -/
def blockSum (c : Dev nD) (b : Fin 128) (n : ℕ) : EReal :=
  if h : n < 100 then ∑ r : Fin 10000, xarr V c (ix2 ⟨n * 10000 + r.val, by have := r.isLt; omega⟩ b) else 0

/-- and its column sum of squares. -/
def blockSumSq (c : Dev nD) (b : Fin 128) (n : ℕ) : EReal :=
  if h : n < 100 then ∑ r : Fin 10000, xarr V c (ix2 ⟨n * 10000 + r.val, by have := r.isLt; omega⟩ b)
    * xarr V c (ix2 ⟨n * 10000 + r.val, by have := r.isLt; omega⟩ b) else 0

theorem xblk_colsum (c : Dev nD) (t : Fin cfg0.N) (b : Fin 128) :
    ∑ r : Fin 10000, xblk V c t (ix2 r b) = blockSum V c b t.val := by
  have hN : t.val < 100 := lt_of_lt_of_eq t.isLt (show cfg0.N = 100 from N_0)
  rw [blockSum, dif_pos hN]
  exact Finset.sum_congr rfl fun r _ => xblk_apply V c t r b _

theorem xblk_colsumsq (c : Dev nD) (t : Fin cfg0.N) (b : Fin 128) :
    ∑ r : Fin 10000, xblk V c t (ix2 r b) * xblk V c t (ix2 r b) = blockSumSq V c b t.val := by
  have hN : t.val < 100 := lt_of_lt_of_eq t.isLt (show cfg0.N = 100 from N_0)
  rw [blockSumSq, dif_pos hN]
  exact Finset.sum_congr rfl fun r _ => by rw [xblk_apply V c t r b _]

/-- THE INVARIANT: after point n the first partial buffer holds, at lane b, the column sums of the blocks of n's
    chunk seen so far: blocks 25·(n / 25) … n. -/
theorem psum_at (c : Dev nD) (b : Fin 128) : ∀ (n : ℕ) (h : n < cfg0.N),
    (outsAt0 V c n h).1 (ix3 (0 : Fin 1) (0 : Fin 1) b)
      = ∑ k ∈ Finset.range (n % 25 + 1), blockSum V c b (n / 25 * 25 + k)
  | 0, h => by
    rw [outsAt0_A V c ⟨0, h⟩ rfl]
    dsimp only
    rw [outA_1_apply]
    exact (xblk_colsum V c ⟨0, h⟩ b).trans (by simp)
  | n + 1, h => by
    by_cases h0 : (n + 1) % 25 = 0
    · rw [outsAt0_A V c ⟨n + 1, h⟩ h0]
      dsimp only
      rw [outA_1_apply]
      refine (xblk_colsum V c ⟨n + 1, h⟩ b).trans ?_
      rw [h0, Finset.sum_range_one]
      congr 1
      dsimp only
      omega
    · rw [outsAt0_B V c ⟨n + 1, h⟩ h0]
      dsimp only
      rw [outB_1_apply]
      have ih := psum_at c b n (Nat.lt_of_succ_lt h)
      rw [show (n + 1) % 25 = n % 25 + 1 by omega, show (n + 1) / 25 = n / 25 by omega,
        Finset.sum_range_succ _ (n % 25 + 1), ← ih]
      refine congrArg₂ (· + ·) rfl ?_
      refine (xblk_colsum V c ⟨n + 1, h⟩ b).trans ?_
      congr 1
      dsimp only
      omega

/-- Windows 1 and 2's block index at point t is (t / 25, 0, 0). -/
theorem hidx1 : ∀ t : Fin cfg0.N, win0_1.index t (0 : Fin 3) = t.val / 25 ∧ win0_1.index t (1 : Fin 3) = 0 ∧ win0_1.index t (2 : Fin 3) = 0 :=
  (by decide +kernel : ∀ t : Fin grid0.N, win0_1.index t (0 : Fin 3) = t.val / 25 ∧ win0_1.index t (1 : Fin 3) = 0 ∧ win0_1.index t (2 : Fin 3) = 0)
theorem hidx2 : ∀ t : Fin cfg0.N, win0_2.index t (0 : Fin 3) = t.val / 25 ∧ win0_2.index t (1 : Fin 3) = 0 ∧ win0_2.index t (2 : Fin 3) = 0 :=
  (by decide +kernel : ∀ t : Fin grid0.N, win0_2.index t (0 : Fin 3) = t.val / 25 ∧ win0_2.index t (1 : Fin 3) = 0 ∧ win0_2.index t (2 : Fin 3) = 0)

/-- Chunk p's column sum at lane b: over its 25 blocks and their 10000 rows. -/
def chunkSum (c : Dev nD) (p : Fin 4) (b : Fin 128) : EReal :=
  ∑ s : Fin 25, ∑ r : Fin 10000, xarr V c (ix2 (row p s r) b)

/-- The 25 block sums of chunk p add up to it. -/
theorem sum_blockSum (c : Dev nD) (p : Fin 4) (b : Fin 128) :
    ∑ k ∈ Finset.range 25, blockSum V c b (p.val * 25 + k) = chunkSum V c p b := by
  rw [Finset.sum_range]
  refine Finset.sum_congr rfl fun s _ => ?_
  have hp := p.isLt
  have hs := s.isLt
  have h : p.val * 25 + s.val < 100 := by omega
  rw [blockSum, dif_pos h]
  rfl

theorem chunkSum_congr (c : Dev nD) {p p' : Fin 4} {b b' : Fin 128} (hp : p.val = p'.val) (hb : b.val = b'.val) :
    chunkSum V c p b = chunkSum V c p' b' := by
  obtain rfl := Fin.ext hp
  obtain rfl := Fin.ext hb
  rfl

/-- The first partial array's final contents. -/
abbrev psumG (c : Dev nD) : S4x1x128.Idx → EReal := fun i => chunkSum V c (i 0) (i 2)

/-- At a point that writes back (the last block of a chunk) the buffer holds the chunk's sums: block t / 25 of them. -/
theorem flushed1_eq (c : Dev nD) (t : Fin cfg0.N) (hf : (cfg0.win 1).flush t = true) :
    (dat0 (F := Ideal) V c).flushed 1 t = ((cfg0.win 1).blk t).view.read (Elt Ideal) (psumG V c) := by
  have h24 : t.val % 25 = 24 := (flush0_1 t).mp hf
  have hN : t.val < 100 := lt_of_lt_of_eq t.isLt (show cfg0.N = 100 from N_0)
  funext j
  have hj0 : (j 0).val < 1 := (j 0).isLt
  have hj1 : (j 1).val < 1 := (j 1).isLt
  have hj2 : (j 2).val < 128 := (j 2).isLt
  have e : (cfg0.win 1).xinj (cfg0.grid.coords t) j = ix3 (0 : Fin 1) (0 : Fin 1) (⟨(j 2).val, hj2⟩ : Fin 128) := by
    funext a
    apply Fin.ext
    match a with
    | ⟨0, _⟩ => show (j 0).val = 0; omega
    | ⟨1, _⟩ => show (j 1).val = 0; omega
    | ⟨2, _⟩ => rfl
  show (dat0 (F := Ideal) V c).after 1 t ((cfg0.win 1).xinj (cfg0.grid.coords t) j) = _
  rw [after0_1, e, psum_at, h24, View.read_apply]
  show _ = chunkSum V c _ _
  have hq : t.val / 25 < 4 := by omega
  refine (show _ = chunkSum V c ⟨t.val / 25, hq⟩ ⟨(j 2).val, hj2⟩ from sum_blockSum V c ⟨t.val / 25, hq⟩ _).trans ?_
  refine chunkSum_congr V c ?_ ?_
  · show t.val / 25 = win0_1.index t 0 * 1 + 1 * (j 0).val
    rw [(hidx1 t).1]; omega
  · show (j 2).val = win0_1.index t 2 * 128 + 1 * (j 2).val
    rw [(hidx1 t).2.2]; omega

/-- Every entry of the array lies in the block written back at the last point of its chunk. -/
theorem cover1 (i : S4x1x128.Idx) :
    ∃ t : Fin cfg0.N, (cfg0.win 1).flush t = true ∧ i ∈ ((cfg0.win 1).blk t).view.set := by
  have h0 : (i 0).val < 4 := (i 0).isLt
  have h1 : (i 1).val < 1 := (i 1).isLt
  have h2 : (i 2).val < 128 := (i 2).isLt
  have hN : 25 * (i 0).val + 24 < cfg0.N := by rw [show cfg0.N = 100 from N_0]; omega
  refine ⟨⟨25 * (i 0).val + 24, hN⟩, (flush0_1 _).mpr (by dsimp only; omega), ?_⟩
  show i ∈ ((View.whole main_v0_0).slice (win0_1.rect ⟨25 * (i 0).val + 24, hN⟩)).set
  rw [View.set_slice_whole, Rect.mem_set_unit]
  intro a
  match a with
  | ⟨0, _⟩ =>
    show win0_1.index ⟨25 * (i 0).val + 24, hN⟩ 0 * 1 ≤ (i 0 : Nat) ∧ (i 0 : Nat) < win0_1.index ⟨25 * (i 0).val + 24, hN⟩ 0 * 1 + 1
    rw [(hidx1 _).1]; dsimp only; omega
  | ⟨1, _⟩ =>
    show win0_1.index ⟨25 * (i 0).val + 24, hN⟩ 1 * 1 ≤ (i 1 : Nat) ∧ (i 1 : Nat) < win0_1.index ⟨25 * (i 0).val + 24, hN⟩ 1 * 1 + 1
    rw [(hidx1 _).2.1]; omega
  | ⟨2, _⟩ =>
    show win0_1.index ⟨25 * (i 0).val + 24, hN⟩ 2 * 128 ≤ (i 2 : Nat) ∧ (i 2 : Nat) < win0_1.index ⟨25 * (i 0).val + 24, hN⟩ 2 * 128 + 128
    rw [(hidx1 _).2.2]; omega

/-- The first partial array after the pass: per chunk and column, the sum over the chunk's blocks and rows. -/
theorem psum_final (c : Dev nD) :
    (dat0 (F := Ideal) V c).arrAt 1 cfg0.N
      = (fun i : S4x1x128.Idx => ∑ s : Fin 25, ∑ r : Fin 10000, xarr V c (ix2 (row (i 0) s r) (i 2))) := by
  exact (dat0 (F := Ideal) V c).arrAt_eq_of_cover 1 (psumG V c) (flushed1_eq V c) cover1

/-! ### The second partial array: the same with squares -/

/-- THE INVARIANT for the squares: after point n the second partial buffer holds, at lane b, the column sums of squares
    of the blocks of n's chunk seen so far. -/
theorem psq_at (c : Dev nD) (b : Fin 128) : ∀ (n : ℕ) (h : n < cfg0.N),
    (outsAt0 V c n h).2 (ix3 (0 : Fin 1) (0 : Fin 1) b)
      = ∑ k ∈ Finset.range (n % 25 + 1), blockSumSq V c b (n / 25 * 25 + k)
  | 0, h => by
    rw [outsAt0_A V c ⟨0, h⟩ rfl]
    dsimp only
    rw [outA_2_apply]
    exact (xblk_colsumsq V c ⟨0, h⟩ b).trans (by simp)
  | n + 1, h => by
    by_cases h0 : (n + 1) % 25 = 0
    · rw [outsAt0_A V c ⟨n + 1, h⟩ h0]
      dsimp only
      rw [outA_2_apply]
      refine (xblk_colsumsq V c ⟨n + 1, h⟩ b).trans ?_
      rw [h0, Finset.sum_range_one]
      congr 1
      dsimp only
      omega
    · rw [outsAt0_B V c ⟨n + 1, h⟩ h0]
      dsimp only
      rw [outB_2_apply]
      have ih := psq_at c b n (Nat.lt_of_succ_lt h)
      rw [show (n + 1) % 25 = n % 25 + 1 by omega, show (n + 1) / 25 = n / 25 by omega,
        Finset.sum_range_succ _ (n % 25 + 1), ← ih]
      refine congrArg₂ (· + ·) rfl ?_
      refine (xblk_colsumsq V c ⟨n + 1, h⟩ b).trans ?_
      congr 1
      dsimp only
      omega

/-- Chunk p's column sum of squares at lane b. -/
def chunkSumSq (c : Dev nD) (p : Fin 4) (b : Fin 128) : EReal :=
  ∑ s : Fin 25, ∑ r : Fin 10000, xarr V c (ix2 (row p s r) b) * xarr V c (ix2 (row p s r) b)

theorem sum_blockSumSq (c : Dev nD) (p : Fin 4) (b : Fin 128) :
    ∑ k ∈ Finset.range 25, blockSumSq V c b (p.val * 25 + k) = chunkSumSq V c p b := by
  rw [Finset.sum_range]
  refine Finset.sum_congr rfl fun s _ => ?_
  have hp := p.isLt
  have hs := s.isLt
  have h : p.val * 25 + s.val < 100 := by omega
  rw [blockSumSq, dif_pos h]
  rfl

theorem chunkSumSq_congr (c : Dev nD) {p p' : Fin 4} {b b' : Fin 128} (hp : p.val = p'.val) (hb : b.val = b'.val) :
    chunkSumSq V c p b = chunkSumSq V c p' b' := by
  obtain rfl := Fin.ext hp
  obtain rfl := Fin.ext hb
  rfl

/-- The second partial array's final contents. -/
abbrev psqG (c : Dev nD) : S4x1x128.Idx → EReal := fun i => chunkSumSq V c (i 0) (i 2)

theorem flushed2_eq (c : Dev nD) (t : Fin cfg0.N) (hf : (cfg0.win 2).flush t = true) :
    (dat0 (F := Ideal) V c).flushed 2 t = ((cfg0.win 2).blk t).view.read (Elt Ideal) (psqG V c) := by
  have h24 : t.val % 25 = 24 := (flush0_2 t).mp hf
  have hN : t.val < 100 := lt_of_lt_of_eq t.isLt (show cfg0.N = 100 from N_0)
  funext j
  have hj0 : (j 0).val < 1 := (j 0).isLt
  have hj1 : (j 1).val < 1 := (j 1).isLt
  have hj2 : (j 2).val < 128 := (j 2).isLt
  have e : (cfg0.win 2).xinj (cfg0.grid.coords t) j = ix3 (0 : Fin 1) (0 : Fin 1) (⟨(j 2).val, hj2⟩ : Fin 128) := by
    funext a
    apply Fin.ext
    match a with
    | ⟨0, _⟩ => show (j 0).val = 0; omega
    | ⟨1, _⟩ => show (j 1).val = 0; omega
    | ⟨2, _⟩ => rfl
  show (dat0 (F := Ideal) V c).after 2 t ((cfg0.win 2).xinj (cfg0.grid.coords t) j) = _
  rw [after0_2, e, psq_at, h24, View.read_apply]
  show _ = chunkSumSq V c _ _
  have hq : t.val / 25 < 4 := by omega
  refine (show _ = chunkSumSq V c ⟨t.val / 25, hq⟩ ⟨(j 2).val, hj2⟩ from sum_blockSumSq V c ⟨t.val / 25, hq⟩ _).trans ?_
  refine chunkSumSq_congr V c ?_ ?_
  · show t.val / 25 = win0_2.index t 0 * 1 + 1 * (j 0).val
    rw [(hidx2 t).1]; omega
  · show (j 2).val = win0_2.index t 2 * 128 + 1 * (j 2).val
    rw [(hidx2 t).2.2]; omega

theorem cover2 (i : S4x1x128.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 128 := (i 2).isLt
  have hN : 25 * (i 0).val + 24 < cfg0.N := by rw [show cfg0.N = 100 from N_0]; omega
  refine ⟨⟨25 * (i 0).val + 24, hN⟩, (flush0_2 _).mpr (by dsimp only; omega), ?_⟩
  show i ∈ ((View.whole main_v0_1).slice (win0_2.rect ⟨25 * (i 0).val + 24, hN⟩)).set
  rw [View.set_slice_whole, Rect.mem_set_unit]
  intro a
  match a with
  | ⟨0, _⟩ =>
    show win0_2.index ⟨25 * (i 0).val + 24, hN⟩ 0 * 1 ≤ (i 0 : Nat) ∧ (i 0 : Nat) < win0_2.index ⟨25 * (i 0).val + 24, hN⟩ 0 * 1 + 1
    rw [(hidx2 _).1]; dsimp only; omega
  | ⟨1, _⟩ =>
    show win0_2.index ⟨25 * (i 0).val + 24, hN⟩ 1 * 1 ≤ (i 1 : Nat) ∧ (i 1 : Nat) < win0_2.index ⟨25 * (i 0).val + 24, hN⟩ 1 * 1 + 1
    rw [(hidx2 _).2.1]; omega
  | ⟨2, _⟩ =>
    show win0_2.index ⟨25 * (i 0).val + 24, hN⟩ 2 * 128 ≤ (i 2 : Nat) ∧ (i 2 : Nat) < win0_2.index ⟨25 * (i 0).val + 24, hN⟩ 2 * 128 + 128
    rw [(hidx2 _).2.2]; omega

/-- The second partial array after the pass: the same sums of the squares. -/
theorem psq_final (c : Dev nD) :
    (dat0 (F := Ideal) V c).arrAt 2 cfg0.N
      = (fun i : S4x1x128.Idx => ∑ s : Fin 25, ∑ r : Fin 10000,
          xarr V c (ix2 (row (i 0) s r) (i 2)) * xarr V c (ix2 (row (i 0) s r) (i 2))) := by
  exact (dat0 (F := Ideal) V c).arrAt_eq_of_cover 2 (psqG V c) (flushed2_eq V c) cover2

end Cert.KernelIdeal.StatsValue

end
-- ==== Proof.Spec.lean ====
/-
  The per-entry mathematics of the two programs, on the extended reals, with no program in sight.
  Both normalise an entry x[i,j] by running column statistics (count, mean, m2) updated with the batch of
  n = 10^6 rows: with tot = Σ_r x[r,j] the batch mean is tot / n, delta = tot / n - mean,
  new_count = count + n, new_mean = mean + delta · (n / new_count),
  new_m2 = m2 + m2_b + delta² · (count · n / new_count), denom = max (new_count - 1) 1, and the variance is
  new_m2 / denom + eps. The two sides differ in the batch's sum of squared deviations m2_b
  (Σ x² - (tot/n)² · n against Σ (x - tot/n)²) and in the last step
  ((x - new_mean) · rsqrt v against (x - new_mean) / sqrt v).
-/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Data.Fintype.Card
import Mathlib.Analysis.SpecialFunctions.Pow.Real
import Mathlib.Tactic.Ring
import Mathlib.Tactic.FieldSimp
import Mathlib.Tactic.Linarith
import Mathlib.Tactic.NormNum
import Mathlib.Tactic.Positivity

noncomputable section

namespace Cert.VNorm

open Idealize.ShloMosaic

/-- The three float literals both programs carry, as the extended reals their words denote:
    10^6 (the batch size), 1, and the variance's epsilon. -/
abbrev cN : EReal := Ideal.ofBits .f32 0x49742400#32
abbrev cOne : EReal := Ideal.ofBits .f32 0x3F800000#32
abbrev cEps : EReal := Ideal.ofBits .f32 0x3727C5AC#32

def newCount (cnt : EReal) : EReal := cnt + cN
def batchMean (tot : EReal) : EReal := Ideal.div tot cN
def delta (tot mean : EReal) : EReal := batchMean tot - mean
def newMean (tot cnt mean : EReal) : EReal := mean + delta tot mean * Ideal.div cN (newCount cnt)
def newM2 (m2B tot cnt mean m2 : EReal) : EReal :=
  m2 + m2B + delta tot mean * delta tot mean * Ideal.div (cnt * cN) (newCount cnt)
def denom (cnt : EReal) : EReal := max (newCount cnt - cOne) cOne
def variance (m2B tot cnt mean m2 : EReal) : EReal := Ideal.div (newM2 m2B tot cnt mean m2) (denom cnt) + cEps

/-- The kernel's entry: sum of squares minus n·mean², then a product with the reciprocal square root. -/
def kernelEntry (xij tot totsq cnt mean m2 : EReal) : EReal :=
  (xij - newMean tot cnt mean)
    * Ideal.rsqrt (variance (totsq - batchMean tot * batchMean tot * cN) tot cnt mean m2)

/-- The reference's entry: the sum of squared deviations, then a quotient by the square root. -/
def refEntry (xij tot devsq cnt mean m2 : EReal) : EReal :=
  Ideal.div (xij - newMean tot cnt mean) (Ideal.sqrt (variance devsq tot cnt mean m2))

/-! ### The three literals -/

/-- The word 0x49742400 is (2^23 + 7611392) · 2^(146 - 150) = 16000000 / 16 = 10^6. -/
theorem cN_eq : cN = ((1000000 : ℝ) : EReal) := by
  simp [Ideal.ofBits, Ideal.ieee, -EReal.coe_mul]; norm_num

/-- The word 0x3F800000 is 2^23 · 2^(127 - 150) = 1. -/
theorem cOne_eq : cOne = ((1 : ℝ) : EReal) := by
  simp [Ideal.ofBits, Ideal.ieee, -EReal.coe_mul]; norm_num

/-- The epsilon as a real: (2^23 + 2606508) · 2^(110 - 150) = 10995116 / 2^40, about 10^-5. -/
def epsR : ℝ := 10995116 / 1099511627776

theorem epsR_pos : 0 < epsR := by unfold epsR; norm_num

theorem cEps_eq : cEps = ((epsR : ℝ) : EReal) := by
  unfold epsR
  simp [Ideal.ofBits, Ideal.ieee, -EReal.coe_mul]; norm_num

/-! ### Finite sums of reals, read in the extended reals -/

/-- The coercion commutes with a finite sum. -/
theorem coe_sum {ι : Type} (s : Finset ι) (f : ι → ℝ) :
    ∑ r ∈ s, ((f r : ℝ) : EReal) = ((∑ r ∈ s, f r : ℝ) : EReal) := by
  classical
  induction s using Finset.induction_on with
  | empty => simp
  | insert a s ha ih => rw [Finset.sum_insert ha, Finset.sum_insert ha, ih, EReal.coe_add]

/-- Σ (a - μ)² = Σ a² - μ² n, for μ = (Σ a) / n and n the number of terms. -/
theorem sum_sq_dev {ι : Type} [Fintype ι] (a : ι → ℝ) (n : ℝ) (hn : n ≠ 0)
    (hcard : (Fintype.card ι : ℝ) = n) :
    ∑ r, (a r - (∑ r', a r') / n) * (a r - (∑ r', a r') / n)
      = ∑ r, a r * a r - (∑ r', a r') / n * ((∑ r', a r') / n) * n := by
  have hT : ∑ r, a r = (∑ r', a r') / n * n := by field_simp
  generalize (∑ r', a r') / n = μ at hT ⊢
  have h : ∀ r, (a r - μ) * (a r - μ) = a r * a r - 2 * μ * a r + μ * μ := fun r => by ring
  simp only [h]
  rw [Finset.sum_add_distrib, Finset.sum_sub_distrib, ← Finset.mul_sum, Finset.sum_const,
    Finset.card_univ, nsmul_eq_mul, hcard, hT]
  ring

/-! ### The statistics at real arguments -/

def newMeanR (t c m : ℝ) : ℝ := m + (t / 1000000 - m) * (1000000 * (1 / (c + 1000000)))

def newM2R (b t c m q : ℝ) : ℝ :=
  q + b + (t / 1000000 - m) * (t / 1000000 - m) * (c * 1000000 * (1 / (c + 1000000)))

def denomR (c : ℝ) : ℝ := max (c + 1000000 - 1) 1

def varianceR (b t c m q : ℝ) : ℝ := newM2R b t c m q * (1 / denomR c) + epsR

theorem newCount_coe (c : ℝ) : newCount (c : EReal) = ((c + 1000000 : ℝ) : EReal) := by
  rw [newCount, cN_eq, ← EReal.coe_add]

theorem batchMean_coe (t : ℝ) : batchMean (t : EReal) = ((t / 1000000 : ℝ) : EReal) := by
  rw [batchMean, cN_eq, Ideal.div_coe (by norm_num), ← EReal.coe_mul, mul_one_div]

theorem delta_coe (t m : ℝ) : delta (t : EReal) (m : EReal) = ((t / 1000000 - m : ℝ) : EReal) := by
  rw [delta, batchMean_coe, ← EReal.coe_sub]

theorem newCountR_ne {c : ℝ} (hc : 0 ≤ c) : c + 1000000 ≠ 0 := by
  have : (0 : ℝ) < c + 1000000 := by linarith
  exact ne_of_gt this

theorem newMean_coe (t m : ℝ) {c : ℝ} (hc : 0 ≤ c) :
    newMean (t : EReal) (c : EReal) (m : EReal) = ((newMeanR t c m : ℝ) : EReal) := by
  rw [newMean, delta_coe, newCount_coe, cN_eq, Ideal.div_coe (newCountR_ne hc), ← EReal.coe_mul,
    ← EReal.coe_mul, ← EReal.coe_add, newMeanR]

theorem newM2_coe (b t m q : ℝ) {c : ℝ} (hc : 0 ≤ c) :
    newM2 (b : EReal) (t : EReal) (c : EReal) (m : EReal) (q : EReal) = ((newM2R b t c m q : ℝ) : EReal) := by
  rw [newM2, delta_coe, newCount_coe, cN_eq, ← EReal.coe_mul, Ideal.div_coe (newCountR_ne hc),
    ← EReal.coe_mul, ← EReal.coe_mul, ← EReal.coe_add, ← EReal.coe_mul, ← EReal.coe_add, newM2R]

theorem denom_coe (c : ℝ) : denom (c : EReal) = ((denomR c : ℝ) : EReal) := by
  rw [denom, newCount_coe, cOne_eq, ← EReal.coe_sub, denomR]
  exact (EReal.coe_strictMono.monotone.map_max).symm

theorem denomR_pos (c : ℝ) : 0 < denomR c := lt_of_lt_of_le one_pos (le_max_right _ _)

theorem variance_coe (b t m q : ℝ) {c : ℝ} (hc : 0 ≤ c) :
    variance (b : EReal) (t : EReal) (c : EReal) (m : EReal) (q : EReal)
      = ((varianceR b t c m q : ℝ) : EReal) := by
  rw [variance, newM2_coe b t m q hc, denom_coe, cEps_eq, Ideal.div_coe (ne_of_gt (denomR_pos c)),
    ← EReal.coe_mul, ← EReal.coe_add, varianceR]

/-- The variance is at least the epsilon: every summand of new_m2 is non-negative and the
    denominator is positive. -/
theorem varianceR_pos {b c q : ℝ} (t m : ℝ) (hb : 0 ≤ b) (hc : 0 ≤ c) (hq : 0 ≤ q) :
    0 < varianceR b t c m q := by
  have h1 : 0 ≤ (t / 1000000 - m) * (t / 1000000 - m) := mul_self_nonneg _
  have h2 : 0 ≤ c * 1000000 * (1 / (c + 1000000)) := by positivity
  have h3 : 0 ≤ newM2R b t c m q := by
    unfold newM2R
    have := mul_nonneg h1 h2
    linarith
  have h4 : 0 < 1 / denomR c := one_div_pos.mpr (denomR_pos c)
  have := mul_nonneg h3 h4.le
  have := epsR_pos
  unfold varianceR
  linarith

/-! ### The two entries at real arguments -/

theorem rsqrt_coe_pos {v : ℝ} (hv : 0 < v) : Ideal.rsqrt (v : EReal) = (((Real.sqrt v)⁻¹ : ℝ) : EReal) := by
  rw [Ideal.rsqrt_coe, if_neg (not_lt.mpr hv.le), if_neg (ne_of_gt hv)]

theorem sqrt_coe_pos {v : ℝ} (hv : 0 < v) : Ideal.sqrt (v : EReal) = ((Real.sqrt v : ℝ) : EReal) := by
  rw [Ideal.sqrt_coe, if_neg (not_lt.mpr hv.le)]

theorem kernelEntry_coe (xij t s m q : ℝ) {c : ℝ} (hc : 0 ≤ c)
    (hv : 0 < varianceR (s - t / 1000000 * (t / 1000000) * 1000000) t c m q) :
    kernelEntry (xij : EReal) (t : EReal) (s : EReal) (c : EReal) (m : EReal) (q : EReal)
      = (((xij - newMeanR t c m)
          * (Real.sqrt (varianceR (s - t / 1000000 * (t / 1000000) * 1000000) t c m q))⁻¹ : ℝ) : EReal) := by
  rw [kernelEntry, newMean_coe t m hc, batchMean_coe, cN_eq, ← EReal.coe_mul, ← EReal.coe_mul,
    ← EReal.coe_sub, ← EReal.coe_sub, variance_coe _ t m q hc, rsqrt_coe_pos hv, ← EReal.coe_mul]

theorem refEntry_coe (xij t d m q : ℝ) {c : ℝ} (hc : 0 ≤ c) (hv : 0 < varianceR d t c m q) :
    refEntry (xij : EReal) (t : EReal) (d : EReal) (c : EReal) (m : EReal) (q : EReal)
      = (((xij - newMeanR t c m) * (Real.sqrt (varianceR d t c m q))⁻¹ : ℝ) : EReal) := by
  have hs : Real.sqrt (varianceR d t c m q) ≠ 0 := ne_of_gt (Real.sqrt_pos.mpr hv)
  rw [refEntry, newMean_coe t m hc, ← EReal.coe_sub, variance_coe d t m q hc, sqrt_coe_pos hv,
    Ideal.div_coe hs, ← EReal.coe_mul, one_div]

/-- THE LAW. Over a column of 10^6 finite entries, with a non-negative finite count and m2 and a finite mean,
    the two entries are one extended real: the sums of squares agree by Σ (x - μ)² = Σ x² - n μ² (μ = Σ x / n,
    n the number of terms), and the variance is at least eps > 0, where rsqrt v = (√v)⁻¹ and a quotient by √v
    is the product with it. -/
theorem entry_eq {ι : Type} [Fintype ι] (hcard : Fintype.card ι = 1000000) (x : ι → EReal)
    (hx : ∀ r, ∃ a : ℝ, x r = (a : EReal)) (i : ι) (cnt mean m2 : EReal)
    (hcnt : ∃ a : ℝ, 0 ≤ a ∧ cnt = (a : EReal)) (hmean : ∃ a : ℝ, mean = (a : EReal))
    (hm2 : ∃ a : ℝ, 0 ≤ a ∧ m2 = (a : EReal)) :
    kernelEntry (x i) (∑ r, x r) (∑ r, x r * x r) cnt mean m2
      = refEntry (x i) (∑ r, x r)
          (∑ r, (x r - batchMean (∑ r', x r')) * (x r - batchMean (∑ r', x r'))) cnt mean m2 := by
  obtain ⟨c, hc, rfl⟩ := hcnt
  obtain ⟨m, rfl⟩ := hmean
  obtain ⟨q, hq, rfl⟩ := hm2
  choose a ha using hx
  obtain rfl : x = fun r => ((a r : ℝ) : EReal) := funext ha
  -- every sum is the sum of the real witnesses
  have hT : ∑ r, ((a r : ℝ) : EReal) = ((∑ r, a r : ℝ) : EReal) := coe_sum _ _
  have hS : ∑ r, ((a r : ℝ) : EReal) * ((a r : ℝ) : EReal) = ((∑ r, a r * a r : ℝ) : EReal) := by
    simp only [← EReal.coe_mul]; exact coe_sum _ _
  have hD : ∑ r, (((a r : ℝ) : EReal) - (((∑ r', a r') / 1000000 : ℝ) : EReal))
        * (((a r : ℝ) : EReal) - (((∑ r', a r') / 1000000 : ℝ) : EReal))
      = ((∑ r, (a r - (∑ r', a r') / 1000000) * (a r - (∑ r', a r') / 1000000) : ℝ) : EReal) := by
    simp only [← EReal.coe_sub, ← EReal.coe_mul]; exact coe_sum _ _
  -- the two sums of squares are one real, and it is non-negative
  have hid := sum_sq_dev a 1000000 (by norm_num) (by rw [hcard]; norm_num)
  have hnn : 0 ≤ ∑ r, (a r - (∑ r', a r') / 1000000) * (a r - (∑ r', a r') / 1000000) :=
    Finset.sum_nonneg fun r _ => mul_self_nonneg _
  have hv := varianceR_pos (∑ r, a r) m hnn hc hq
  beta_reduce
  rw [hT, hS, batchMean_coe, hD, refEntry_coe _ _ _ m q hc hv, kernelEntry_coe _ _ _ m q hc (hid ▸ hv), ← hid]

end Cert.VNorm

end
-- ==== Proof.KI.ApplyValue.lean ====
/-
  REGION 1's value, on the extended reals: after the pass, entry (R, j) of the result array is the kernel's per-entry
  formula of x[R, j], the column's totals (the four chunks' partial sums, and partial sums of squares, added), and the
  column's count, mean and m2 as the region finds them in the three one-row arrays.
-/
import proofs.«173743_g90340342104516_pilotgen1_308_7_alg».proof.Proof.KI.Apply
import proofs.«173743_g90340342104516_pilotgen1_308_7_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ApplyValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Apply Cert.VNorm

variable (V : (c : Dev nD) → (b : Ref sig .tc) → Buf (Elt Ideal) ((c : Thread nD τ).loc b))

/-- The arrays region 1 reads, as it finds them. -/
abbrev xin (c : Dev nD) : S1000000x128.Idx → EReal := V c main_arg0
abbrev psin (c : Dev nD) : S4x1x128.Idx → EReal := V c main_v0_0
abbrev pqin (c : Dev nD) : S4x1x128.Idx → EReal := V c main_v0_1
abbrev cnin (c : Dev nD) : S1x128.Idx → EReal := V c main_v1
abbrev mnin (c : Dev nD) : S1x128.Idx → EReal := V c main_v2
abbrev mmin (c : Dev nD) : S1x128.Idx → EReal := V c main_v3

/-! ### The body's arithmetic at an entry -/

section Payload

variable (x0 : Vec Ideal S10000x128 .f32) (ps pq : Vec Ideal S4x1x128 .f32) (cn mn mm : Vec Ideal S1x128 .f32)

/-- Over column b of the one-row result, the chunk axis's coordinate p is inserted in front. -/
theorem lift_chunk (b : Fin 128) (p : Fin 4) :
    reduces_S4x1x128_S1x128.lift (ix2 (0 : Fin 1) b) p = ix3 p (0 : Fin 1) b :=
  funext fun c => Fin.ext (by match c with | ⟨0, _⟩ => rfl | ⟨1, _⟩ => rfl | ⟨2, _⟩ => rfl)

/-- The sum over the four chunks of a partial array, at column b. -/
theorem chunkSum_at (q : Vec Ideal S4x1x128 .f32) (b : Fin 128) :
    Ideal.reduceAdd reduces_S4x1x128_S1x128 q (ix2 (0 : Fin 1) b) = ∑ p : Fin 4, q (ix3 p (0 : Fin 1) b) := by
  rw [Ideal.reduceAdd_single]
  exact Finset.sum_congr rfl fun p _ => congrArg q (lift_chunk b p)

theorem pay2_eq : k1_pay2 (F := Ideal) cn = cn := shapeCast_self cn _
theorem pay3_eq : k1_pay3 (F := Ideal) mn = mn := shapeCast_self mn _

/-- The new count at column b. -/
theorem pay4_at (b : Fin 128) : k1_pay4 (F := Ideal) cn (ix2 (0 : Fin 1) b) = newCount (cn (ix2 (0 : Fin 1) b)) := by
  unfold k1_pay4; rw [pay2_eq]; rfl

/-- The batch mean at column b. -/
theorem pay5_at (b : Fin 128) :
    k1_pay5 (F := Ideal) ps (ix2 (0 : Fin 1) b) = batchMean (∑ p : Fin 4, ps (ix3 p (0 : Fin 1) b)) := by
  unfold k1_pay5
  rw [shapeCast_self ps]
  show Ideal.div (Ideal.reduceAdd reduces_S4x1x128_S1x128 ps (ix2 (0 : Fin 1) b)) cN = _
  rw [chunkSum_at]; rfl

/-- The batch mean's offset from the running mean at column b. -/
theorem pay6_at (b : Fin 128) :
    k1_pay6 (F := Ideal) ps mn (ix2 (0 : Fin 1) b)
      = delta (∑ p : Fin 4, ps (ix3 p (0 : Fin 1) b)) (mn (ix2 (0 : Fin 1) b)) := by
  unfold k1_pay6
  rw [subf_apply, pay5_at, pay3_eq]; rfl

/-- The new mean at column b. -/
theorem pay7_at (b : Fin 128) :
    k1_pay7 (F := Ideal) ps cn mn (ix2 (0 : Fin 1) b)
      = newMean (∑ p : Fin 4, ps (ix3 p (0 : Fin 1) b)) (cn (ix2 (0 : Fin 1) b)) (mn (ix2 (0 : Fin 1) b)) := by
  unfold k1_pay7
  rw [addf_apply, mulf_apply, divf_apply, pay6_at, pay4_at, pay3_eq]; rfl

/-- The new m2 over the denominator at column b, the batch's sum of squared deviations taken as the sum of
    squares minus 10^6 times the squared batch mean. -/
theorem pay8_at (b : Fin 128) :
    k1_pay8 (F := Ideal) ps pq cn mn mm (ix2 (0 : Fin 1) b)
      = Ideal.div (newM2 ((∑ p : Fin 4, pq (ix3 p (0 : Fin 1) b))
            - batchMean (∑ p : Fin 4, ps (ix3 p (0 : Fin 1) b)) * batchMean (∑ p : Fin 4, ps (ix3 p (0 : Fin 1) b)) * cN)
          (∑ p : Fin 4, ps (ix3 p (0 : Fin 1) b)) (cn (ix2 (0 : Fin 1) b)) (mn (ix2 (0 : Fin 1) b)) (mm (ix2 (0 : Fin 1) b)))
        (denom (cn (ix2 (0 : Fin 1) b))) := by
  unfold k1_pay8
  rw [shapeCast_self pq, shapeCast_self mm, pay2_eq]
  show Ideal.div (mm (ix2 (0 : Fin 1) b)
        + (Ideal.reduceAdd reduces_S4x1x128_S1x128 pq (ix2 (0 : Fin 1) b)
            - k1_pay5 (F := Ideal) ps (ix2 (0 : Fin 1) b) * k1_pay5 (F := Ideal) ps (ix2 (0 : Fin 1) b) * cN)
        + k1_pay6 (F := Ideal) ps mn (ix2 (0 : Fin 1) b) * k1_pay6 (F := Ideal) ps mn (ix2 (0 : Fin 1) b)
            * Ideal.div (cn (ix2 (0 : Fin 1) b) * cN) (k1_pay4 (F := Ideal) cn (ix2 (0 : Fin 1) b)))
      (max (k1_pay4 (F := Ideal) cn (ix2 (0 : Fin 1) b) - cOne) cOne) = _
  rw [chunkSum_at, pay4_at, pay5_at, pay6_at]; rfl

/-- The stored block at (a, b): the kernel's per-entry formula. -/
theorem pay_entry (a : Fin 10000) (b : Fin 128) :
    k1_pay1 (F := Ideal) (k1_pay7 ps cn mn) (k1_pay8 ps pq cn mn mm) x0 (ix2 a b)
      = kernelEntry (x0 (ix2 a b)) (∑ p : Fin 4, ps (ix3 p (0 : Fin 1) b)) (∑ p : Fin 4, pq (ix3 p (0 : Fin 1) b))
          (cn (ix2 (0 : Fin 1) b)) (mn (ix2 (0 : Fin 1) b)) (mm (ix2 (0 : Fin 1) b)) := by
  unfold k1_pay1
  rw [mulf_apply, subf_apply, broadcastTo_1b_ab_apply, broadcastTo_1b_ab_apply, pay7_at]
  show _ * Ideal.rsqrt (k1_pay8 (F := Ideal) ps pq cn mn mm (ix2 (0 : Fin 1) b) + _) = _
  rw [pay8_at]; rfl

end Payload

/-! ### The windows' index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- Decided over the 100 grid points: the x window and the result window are at block (t, 0); the five other
    windows stay at block 0. -/
theorem idx_facts : ∀ t : Fin cfg1.N,
    win1_0.index t (0 : Fin 2) = t.val ∧ win1_0.index t (1 : Fin 2) = 0
    ∧ win1_6.index t (0 : Fin 2) = t.val ∧ win1_6.index t (1 : Fin 2) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row a of point t's block is row 10000·t + a of the array. -/
def rowOf (t : Fin cfg1.N) (a : Fin 10000) : Fin 1000000 :=
  ⟨t.val * 10000 + a.val, by have ht : t.val < 100 := t.isLt; have := a.isLt; omega⟩

/-! ### Where each block's entries sit in its array -/

theorem emb0_ix (t : Fin cfg1.N) (a : Fin 10000) (b : Fin 128) :
    ((cfg1.win 0).blk t).view.emb (ix2 a b) = (ix2 (rowOf t a) b : S1000000x128.Idx) := by
  obtain ⟨e0, e1, -⟩ := idx_facts t
  funext d; apply Fin.ext
  match d with
  | ⟨0, _⟩ => show win1_0.index t (0 : Fin 2) * 10000 + 1 * a.val = t.val * 10000 + a.val; omega
  | ⟨1, _⟩ => show win1_0.index t (1 : Fin 2) * 128 + 1 * b.val = b.val; omega

theorem emb6_ix (t : Fin cfg1.N) (a : Fin 10000) (b : Fin 128) :
    ((cfg1.win 6).blk t).view.emb (ix2 a b) = (ix2 (rowOf t a) b : S1000000x128.Idx) := by
  obtain ⟨-, -, e0, e1, -⟩ := idx_facts t
  funext d; apply Fin.ext
  match d with
  | ⟨0, _⟩ => show win1_6.index t (0 : Fin 2) * 10000 + 1 * a.val = t.val * 10000 + a.val; omega
  | ⟨1, _⟩ => show win1_6.index t (1 : Fin 2) * 128 + 1 * b.val = b.val; omega

theorem emb1_id (t : Fin cfg1.N) (y : S4x1x128.Idx) : ((cfg1.win 1).blk t).view.emb y = y := by
  obtain ⟨-, -, -, -, e0, e1, e2, -⟩ := idx_facts t
  funext d; apply Fin.ext
  match d with
  | ⟨0, _⟩ => show win1_1.index t (0 : Fin 3) * 4 + 1 * (y 0).val = (y 0).val; omega
  | ⟨1, _⟩ => show win1_1.index t (1 : Fin 3) * 1 + 1 * (y 1).val = (y 1).val; omega
  | ⟨2, _⟩ => show win1_1.index t (2 : Fin 3) * 128 + 1 * (y 2).val = (y 2).val; omega

theorem emb2_id (t : Fin cfg1.N) (y : S4x1x128.Idx) : ((cfg1.win 2).blk t).view.emb y = y := by
  obtain ⟨-, -, -, -, -, -, -, e0, e1, e2, -⟩ := idx_facts t
  funext d; apply Fin.ext
  match d with
  | ⟨0, _⟩ => show win1_2.index t (0 : Fin 3) * 4 + 1 * (y 0).val = (y 0).val; omega
  | ⟨1, _⟩ => show win1_2.index t (1 : Fin 3) * 1 + 1 * (y 1).val = (y 1).val; omega
  | ⟨2, _⟩ => show win1_2.index t (2 : Fin 3) * 128 + 1 * (y 2).val = (y 2).val; omega

theorem emb3_id (t : Fin cfg1.N) (y : S1x128.Idx) : ((cfg1.win 3).blk t).view.emb y = y := by
  obtain ⟨-, -, -, -, -, -, -, -, -, -, e0, e1, -⟩ := idx_facts t
  funext d; apply Fin.ext
  match d with
  | ⟨0, _⟩ => show win1_3.index t (0 : Fin 2) * 1 + 1 * (y 0).val = (y 0).val; omega
  | ⟨1, _⟩ => show win1_3.index t (1 : Fin 2) * 128 + 1 * (y 1).val = (y 1).val; omega

theorem emb4_id (t : Fin cfg1.N) (y : S1x128.Idx) : ((cfg1.win 4).blk t).view.emb y = y := by
  obtain ⟨-, -, -, -, -, -, -, -, -, -, -, -, e0, e1, -⟩ := idx_facts t
  funext d; apply Fin.ext
  match d with
  | ⟨0, _⟩ => show win1_4.index t (0 : Fin 2) * 1 + 1 * (y 0).val = (y 0).val; omega
  | ⟨1, _⟩ => show win1_4.index t (1 : Fin 2) * 128 + 1 * (y 1).val = (y 1).val; omega

theorem emb5_id (t : Fin cfg1.N) (y : S1x128.Idx) : ((cfg1.win 5).blk t).view.emb y = y := by
  obtain ⟨-, -, -, -, -, -, -, -, -, -, -, -, -, -, e0, e1⟩ := idx_facts t
  funext d; apply Fin.ext
  match d with
  | ⟨0, _⟩ => show win1_5.index t (0 : Fin 2) * 1 + 1 * (y 0).val = (y 0).val; omega
  | ⟨1, _⟩ => show win1_5.index t (1 : Fin 2) * 128 + 1 * (y 1).val = (y 1).val; omega

/-! ### From the blocks to the array -/

/-- The whole result array: every entry the kernel's formula of its column's totals and statistics. -/
abbrev entryOf (c : Dev nD) : S1000000x128.Idx → EReal := fun i =>
  kernelEntry (V c main_arg0 i)
    (∑ p : Fin 4, V c main_v0_0 (ix3 p (0 : Fin 1) (i 1))) (∑ p : Fin 4, V c main_v0_1 (ix3 p (0 : Fin 1) (i 1)))
    (V c main_v1 (ix2 (0 : Fin 1) (i 1))) (V c main_v2 (ix2 (0 : Fin 1) (i 1))) (V c main_v3 (ix2 (0 : Fin 1) (i 1)))

/-- What point t writes back is block t of that array. -/
theorem flushed6_eq (c : Dev nD) (t : Fin cfg1.N) :
    (dat1 (F := Ideal) V c).flushed 6 t = ((cfg1.win 6).blk t).view.read (Elt Ideal) (entryOf V c) := by
  show (cfg1.win 6).cut (grid1.coords t) ((dat1 V c).after 6 t) = _
  rw [after1_6]
  unfold out6
  rw [View.canon_unit_zero hz2]
  simp only [View.ld_unit_zero (S := S10000x128) hz2, View.ld_unit_zero (S := S4x1x128) hz3, View.ld_unit_zero (S := S1x128) hz2]
  funext y
  obtain ⟨a, b, rfl⟩ : ∃ (a : Fin 10000) (b : Fin 128), y = ix2 a b := ⟨y 0, y 1, eq_ix2 y⟩
  refine (pay_entry _ _ _ _ _ _ a b).trans ?_
  show kernelEntry (V c main_arg0 (((cfg1.win 0).blk t).view.emb (ix2 a b)))
      (∑ p : Fin 4, V c main_v0_0 (((cfg1.win 1).blk t).view.emb (ix3 p (0 : Fin 1) b)))
      (∑ p : Fin 4, V c main_v0_1 (((cfg1.win 2).blk t).view.emb (ix3 p (0 : Fin 1) b)))
      (V c main_v1 (((cfg1.win 3).blk t).view.emb (ix2 (0 : Fin 1) b)))
      (V c main_v2 (((cfg1.win 4).blk t).view.emb (ix2 (0 : Fin 1) b)))
      (V c main_v3 (((cfg1.win 5).blk t).view.emb (ix2 (0 : Fin 1) b)))
    = entryOf V c (((cfg1.win 6).blk t).view.emb (ix2 a b))
  have h1 : (fun p : Fin 4 => V c main_v0_0 (((cfg1.win 1).blk t).view.emb (ix3 p (0 : Fin 1) b)))
      = fun p : Fin 4 => V c main_v0_0 (ix3 p (0 : Fin 1) b) := funext fun p => by rw [emb1_id]
  have h2 : (fun p : Fin 4 => V c main_v0_1 (((cfg1.win 2).blk t).view.emb (ix3 p (0 : Fin 1) b)))
      = fun p : Fin 4 => V c main_v0_1 (ix3 p (0 : Fin 1) b) := funext fun p => by rw [emb2_id]
  rw [emb0_ix, emb6_ix, emb3_id, emb4_id, emb5_id, h1, h2]

/-- Entry (10000·t + a, b) of the array lies in point t's block. -/
theorem mem_blk6 (t : Fin cfg1.N) (a : Fin 10000) (b : Fin 128) :
    (ix2 (rowOf t a) b : S1000000x128.Idx) ∈ ((cfg1.win 6).blk t).view.set := by
  rw [← emb6_ix]; exact View.emb_mem_set _ _

/-- Every entry of the array lies in the block of the point its row falls in, and every point writes its block back. -/
theorem covered6 (i : S1000000x128.Idx) :
    ∃ t : Fin cfg1.N, (cfg1.win 6).flush t = true ∧ i ∈ ((cfg1.win 6).blk t).view.set := by
  obtain ⟨r, b, rfl⟩ : ∃ (r : Fin 1000000) (b : Fin 128), i = ix2 r b := ⟨i 0, i 1, eq_ix2 i⟩
  obtain ⟨t, a, rfl⟩ : ∃ (t : Fin cfg1.N) (a : Fin 10000), r = rowOf t a :=
    ⟨⟨r.val / 10000, by have := r.isLt; show r.val / 10000 < 100; omega⟩, ⟨r.val % 10000, by omega⟩,
      Fin.ext (by show r.val = r.val / 10000 * 10000 + r.val % 10000; omega)⟩
  exact ⟨t, flush1_6 t, mem_blk6 t a b⟩

/-- The result array after the pass, whole: every entry the kernel's formula of its column's totals and statistics. -/
theorem out_final (c : Dev nD) :
    (dat1 (F := Ideal) V c).arrAt 6 cfg1.N
      = (fun i : S1000000x128.Idx => kernelEntry (xin V c i)
          (∑ p : Fin 4, psin V c (ix3 p 0 (i 1))) (∑ p : Fin 4, pqin V c (ix3 p 0 (i 1)))
          (cnin V c (ix2 0 (i 1))) (mnin V c (ix2 0 (i 1))) (mmin V c (ix2 0 (i 1)))) := by
  exact (dat1 (F := Ideal) V c).arrAt_eq_of_cover 6 (entryOf V c) (fun t _ => flushed6_eq V c t) covered6

end Cert.KernelIdeal.ApplyValue

end
-- ==== Proof.KI.KernelValue.lean ====
/-
  THE KERNEL'S RESULT, on the extended reals, as one function of the launched arrays: entry (R, j) is the kernel's
  per-entry formula of x[R, j], the sum of column j of x over all 10^6 rows, the sum of its squares, and count[j], mean[j],
  m2[j]. Region 1's value (per entry, from the arrays it finds) is read through the boundary contents: x is x as
  launched; the partial arrays are region 0's (per chunk, block and row), whose four chunks add up to the sum over all
  rows; the one-row statistics are the launched vectors.
-/
import proofs.«173743_g90340342104516_pilotgen1_308_7_alg».proof.Proof.KI.RunRead
import proofs.«173743_g90340342104516_pilotgen1_308_7_alg».proof.Proof.KI.StatsValue
import proofs.«173743_g90340342104516_pilotgen1_308_7_alg».proof.Proof.KI.ApplyValue
import proofs.«173743_g90340342104516_pilotgen1_308_7_alg».proof.Proof.Rows
import proofs.«173743_g90340342104516_pilotgen1_308_7_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.KernelValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Stats Cert.KernelIdeal.Apply Cert.KernelIdeal.Run
open Cert.KernelIdeal.StatsValue Cert.KernelIdeal.ApplyValue Cert.VNorm

/-- The kernel's result as a function of x, count, mean and m2. -/
def G (x : S1000000x128.Idx → EReal) (cnt mean m2 : S128.Idx → EReal) : S1000000x128.Idx → EReal :=
  fun i => kernelEntry (x i) (∑ k : Fin 1000000, x (ix2 k (i 1))) (∑ k : Fin 1000000, x (ix2 k (i 1)) * x (ix2 k (i 1)))
    (cnt (ix1 (i 1))) (mean (ix1 (i 1))) (m2 (ix1 (i 1)))

variable (m : (ℓ : Loc nD τ sig) → Buf (Elt Ideal) ℓ) (ρ : Dev nD → PrngReg)

/-- The launched arrays, as functions on their index sets. -/
private abbrev xL (c : Dev nD) : S1000000x128.Idx → EReal := m ((c : Thread nD τ).loc main_arg0)
private abbrev cntL (c : Dev nD) : S128.Idx → EReal := m ((c : Thread nD τ).loc main_arg1)
private abbrev meanL (c : Dev nD) : S128.Idx → EReal := m ((c : Thread nD τ).loc main_arg2)
private abbrev m2L (c : Dev nD) : S128.Idx → EReal := m ((c : Thread nD τ).loc main_arg3)

/-- x, as region 1 finds it, is x as launched. -/
private theorem x_eq (c : Dev nD) : xin (V2 m ρ) c = xL m c :=
  V2_arg0 m ρ c

/-- Chunk p of the first partial array at column j: the sum of x[·, j] over the chunk's blocks and rows. -/
private theorem ps_eq (c : Dev nD) (p : Fin 4) (j : Fin 128) :
    psin (V2 m ρ) c (ix3 p 0 j) = ∑ s : Fin 25, ∑ r : Fin 10000, xL m c (ix2 (row p s r) j) := by
  have h1 : psin (V2 m ρ) c = (dat0 (F := Ideal) (V0 m ρ) c).arrAt 1 cfg0.N := V2_v0_0 m ρ c
  rw [h1, psum_final]

/-- Chunk p of the second partial array at column j: the same sum of the squares. -/
private theorem pq_eq (c : Dev nD) (p : Fin 4) (j : Fin 128) :
    pqin (V2 m ρ) c (ix3 p 0 j)
      = ∑ s : Fin 25, ∑ r : Fin 10000, xL m c (ix2 (row p s r) j) * xL m c (ix2 (row p s r) j) := by
  have h1 : pqin (V2 m ρ) c = (dat0 (F := Ideal) (V0 m ρ) c).arrAt 2 cfg0.N := V2_v0_1 m ρ c
  rw [h1, psq_final]

/-- The four chunks of column j add up to the column's sum over all rows. -/
private theorem tot_eq (c : Dev nD) (j : Fin 128) :
    (∑ p : Fin 4, psin (V2 m ρ) c (ix3 p 0 j)) = ∑ k : Fin 1000000, xL m c (ix2 k j) := by
  exact (Finset.sum_congr rfl fun p _ => ps_eq m ρ c p j).trans (sum_rows (fun k => xL m c (ix2 k j)))

/-- Likewise for the squares. -/
private theorem totsq_eq (c : Dev nD) (j : Fin 128) :
    (∑ p : Fin 4, pqin (V2 m ρ) c (ix3 p 0 j)) = ∑ k : Fin 1000000, xL m c (ix2 k j) * xL m c (ix2 k j) := by
  exact (Finset.sum_congr rfl fun p _ => pq_eq m ρ c p j).trans
    (sum_rows (fun k => xL m c (ix2 k j) * xL m c (ix2 k j)))

/-- The one-row statistics at (0, j) are the launched vectors at j. -/
private theorem cn_eq (c : Dev nD) (j : Fin 128) : cnin (V2 m ρ) c (ix2 0 j) = cntL m c (ix1 j) := by
  have h1 : cnin (V2 m ρ) c = shapeCast S1x128 (cntL m c) shapeCasts_S128_S1x128 := V2_v1 m ρ c
  rw [h1]
  exact shapeCast_a_1a_apply _ _ 0 j
private theorem mn_eq (c : Dev nD) (j : Fin 128) : mnin (V2 m ρ) c (ix2 0 j) = meanL m c (ix1 j) := by
  have h1 : mnin (V2 m ρ) c = shapeCast S1x128 (meanL m c) shapeCasts_S128_S1x128 := V2_v2 m ρ c
  rw [h1]
  exact shapeCast_a_1a_apply _ _ 0 j
private theorem mm_eq (c : Dev nD) (j : Fin 128) : mmin (V2 m ρ) c (ix2 0 j) = m2L m c (ix1 j) := by
  have h1 : mmin (V2 m ρ) c = shapeCast S1x128 (m2L m c) shapeCasts_S128_S1x128 := V2_v3 m ρ c
  rw [h1]
  exact shapeCast_a_1a_apply _ _ 0 j

/-- The kernel's formula of what region 1 finds, at entry (R, j), is `G` of the launched arrays there. -/
private theorem entry_eq (c : Dev nD) (R : Fin 1000000) (j : Fin 128) :
    kernelEntry (xin (V2 m ρ) c (ix2 R j)) (∑ p : Fin 4, psin (V2 m ρ) c (ix3 p 0 j))
      (∑ p : Fin 4, pqin (V2 m ρ) c (ix3 p 0 j)) (cnin (V2 m ρ) c (ix2 0 j)) (mnin (V2 m ρ) c (ix2 0 j))
      (mmin (V2 m ρ) c (ix2 0 j))
    = G (xL m c) (cntL m c) (meanL m c) (m2L m c) (ix2 R j) := by
  rw [x_eq, tot_eq, totsq_eq, cn_eq, mn_eq, mm_eq]
  rfl

/-- What region 1's write-backs make of the result array is `G` of the launched arrays. -/
theorem result_eq (c : Dev nD) :
    (dat1 (F := Ideal) (V2 m ρ) c).arrAt 6 cfg1.N
      = G (m ((c : Thread nD τ).loc main_arg0)) (m ((c : Thread nD τ).loc main_arg1))
          (m ((c : Thread nD τ).loc main_arg2)) (m ((c : Thread nD τ).loc main_arg3)) := by
  rw [out_final]
  funext i
  obtain ⟨R, j, rfl⟩ : ∃ (R : Fin 1000000) (j : Fin 128), i = ix2 R j := ⟨i 0, i 1, eq_ix2 i⟩
  exact entry_eq m ρ c R j

end Cert.KernelIdeal.KernelValue

end
-- ==== Proof.RefValue.lean ====
/-
  The reference's result at an entry: reading its run one operation at a time, entry (r, j) of the result is
  the per-entry formula `refEntry` of x[r,j], the column's sum, the column's sum of squared deviations from
  the batch mean, and the column's running statistics.
-/
import proofs.«173743_g90340342104516_pilotgen1_308_7_alg».proof.Proof.Gen.ReferenceIdeal.Read
import proofs.«173743_g90340342104516_pilotgen1_308_7_alg».proof.Proof.Spec
import Idealize.ShloMosaic.Lib.ValueIdx
import Idealize.ShloMosaic.PureOps.Ideal.Laws

noncomputable section

namespace Cert.VNorm

open Idealize.ShloMosaic Idealize.ShloMosaic.ValueIdx Cert.ReferenceIdeal Cert.ReferenceIdeal.Read

/-! ### The index functions of the layout operations and of the two reductions, at coordinates -/

/-- The first reduction reads row k of column j. -/
theorem idx_v0_ix (j : Fin 128) (k : Fin 1000000) : idx_main_v0 (ix1 j) k = ix2 k j :=
  funext fun a => Fin.ext (by match a with | ⟨0, _⟩ => rfl | ⟨1, _⟩ => rfl)

/-- So does the second. -/
theorem idx_v7_ix (j : Fin 128) (k : Fin 1000000) : idx_main_v7 (ix1 j) k = ix2 k j :=
  funext fun a => Fin.ext (by match a with | ⟨0, _⟩ => rfl | ⟨1, _⟩ => rfl)

/-- The two broadcasts of the batch mean (a row vector, then every row) read column j. -/
theorem idx_v3_v4_ix (r : Fin 1000000) (j : Fin 128) : idx_main_v3 (idx_main_v4 (ix2 r j)) = ix1 j :=
  funext fun a => Fin.ext (by match a with | ⟨0, _⟩ => rfl)

/-- The two broadcasts of the new mean read column j. -/
theorem idx_v30_v31_ix (r : Fin 1000000) (j : Fin 128) : idx_main_v30 (idx_main_v31 (ix2 r j)) = ix1 j :=
  funext fun a => Fin.ext (by match a with | ⟨0, _⟩ => rfl)

/-- The two broadcasts of the standard deviation read column j. -/
theorem idx_v33_v34_ix (r : Fin 1000000) (j : Fin 128) : idx_main_v33 (idx_main_v34 (ix2 r j)) = ix1 j :=
  funext fun a => Fin.ext (by match a with | ⟨0, _⟩ => rfl)

section Stages

variable (x : (⟨S1000000x128, .f32⟩ : BufTy).Contents (Elt Ideal))
  (cnt mean m2 : (⟨S128, .f32⟩ : BufTy).Contents (Elt Ideal))

/-! ### The stages, column by column -/

/-- The first reduction is the column's sum: its initial value is the zero word. -/
theorem ref_tot (j : Fin 128) :
    val_main_v0 (F := Ideal) x (ix1 j) = ∑ k : Fin 1000000, x (ix2 k j) := by
  rw [val_main_v0_apply, val_main_cst_apply, Ideal.ofBits_def, Ideal.ofBits_zero_f32, zero_add]
  simp only [idx_v0_ix]

/-- The batch mean of column j: the sum over the literal 10^6. -/
theorem ref_batchMean (j : Fin 128) :
    val_main_v2 (F := Ideal) x (ix1 j) = batchMean (∑ k : Fin 1000000, x (ix2 k j)) := by
  rw [val_main_v2_apply, ref_tot, val_main_v1_apply, val_main_cst_0_apply, Ideal.hostDivf_def,
    Ideal.ofBits_def, batchMean]

/-- The deviation of entry (r, j) from its column's batch mean. -/
theorem ref_dev (r : Fin 1000000) (j : Fin 128) :
    val_main_v5 (F := Ideal) x (ix2 r j)
      = x (ix2 r j) - batchMean (∑ k : Fin 1000000, x (ix2 k j)) := by
  rw [val_main_v5_apply, val_main_v4_apply, val_main_v3_apply, idx_v3_v4_ix, ref_batchMean,
    Ideal.subf_def]

/-- The second reduction is the column's sum of squared deviations. -/
theorem ref_m2B (j : Fin 128) :
    val_main_v7 (F := Ideal) x (ix1 j)
      = ∑ k : Fin 1000000, (x (ix2 k j) - batchMean (∑ k' : Fin 1000000, x (ix2 k' j)))
          * (x (ix2 k j) - batchMean (∑ k' : Fin 1000000, x (ix2 k' j))) := by
  rw [val_main_v7_apply, val_main_cst_1_apply, Ideal.ofBits_def, Ideal.ofBits_zero_f32, zero_add]
  simp only [idx_v7_ix, val_main_v6_apply, ref_dev, Ideal.mulf_def]

/-- The new count of column j. -/
theorem ref_newCount (j : Fin 128) :
    val_main_v9 (F := Ideal) cnt (ix1 j) = newCount (cnt (ix1 j)) := by
  rw [val_main_v9_apply, val_main_v8_apply, val_main_cst_2_apply, Ideal.addf_def, Ideal.ofBits_def,
    newCount]

/-- The batch mean's offset from the running mean. -/
theorem ref_delta (j : Fin 128) :
    val_main_v10 (F := Ideal) x mean (ix1 j)
      = delta (∑ k : Fin 1000000, x (ix2 k j)) (mean (ix1 j)) := by
  rw [val_main_v10_apply, ref_batchMean, Ideal.subf_def, delta]

/-- The new mean of column j. -/
theorem ref_newMean (j : Fin 128) :
    val_main_v14 (F := Ideal) x cnt mean (ix1 j)
      = newMean (∑ k : Fin 1000000, x (ix2 k j)) (cnt (ix1 j)) (mean (ix1 j)) := by
  rw [val_main_v14_apply, val_main_v13_apply, val_main_v12_apply, ref_delta, ref_newCount,
    val_main_v11_apply, val_main_cst_3_apply, Ideal.addf_def, Ideal.mulf_def, Ideal.hostDivf_def,
    Ideal.ofBits_def, newMean]

/-- The new m2 of column j. -/
theorem ref_newM2 (j : Fin 128) :
    val_main_v21 (F := Ideal) x cnt mean m2 (ix1 j)
      = newM2 (∑ k : Fin 1000000, (x (ix2 k j) - batchMean (∑ k' : Fin 1000000, x (ix2 k' j)))
                * (x (ix2 k j) - batchMean (∑ k' : Fin 1000000, x (ix2 k' j))))
          (∑ k : Fin 1000000, x (ix2 k j)) (cnt (ix1 j)) (mean (ix1 j)) (m2 (ix1 j)) := by
  rw [val_main_v21_apply, val_main_v15_apply, val_main_v20_apply, val_main_v16_apply,
    val_main_v19_apply, val_main_v18_apply, val_main_v17_apply, val_main_cst_4_apply, ref_m2B,
    ref_delta, ref_newCount]
  simp only [Ideal.addf_def, Ideal.mulf_def, Ideal.hostDivf_def, Ideal.ofBits_def]
  rfl

/-- The variance's denominator at column j. -/
theorem ref_denom (j : Fin 128) :
    val_main_v25 (F := Ideal) cnt (ix1 j) = denom (cnt (ix1 j)) := by
  rw [val_main_v25_apply, val_main_v23_apply, val_main_v22_apply, val_main_v24_apply,
    val_main_cst_5_apply, val_main_cst_6_apply, ref_newCount, Ideal.maximumf_def, Ideal.subf_def,
    Ideal.ofBits_def, denom]

/-- The variance of column j. -/
theorem ref_variance (j : Fin 128) :
    val_main_v28 (F := Ideal) x cnt mean m2 (ix1 j)
      = variance (∑ k : Fin 1000000, (x (ix2 k j) - batchMean (∑ k' : Fin 1000000, x (ix2 k' j)))
                * (x (ix2 k j) - batchMean (∑ k' : Fin 1000000, x (ix2 k' j))))
          (∑ k : Fin 1000000, x (ix2 k j)) (cnt (ix1 j)) (mean (ix1 j)) (m2 (ix1 j)) := by
  rw [val_main_v28_apply, val_main_v26_apply, val_main_v27_apply, val_main_cst_7_apply, ref_newM2,
    ref_denom, Ideal.addf_def, Ideal.hostDivf_def, Ideal.ofBits_def, variance]

end Stages

/-! ### The entry -/

/-- Entry (r, j) of the reference's result: the two column reductions read as plain sums over the 10^6 rows,
    the broadcasts read at the column, the elementwise operations at the entry. -/
theorem ref_entry (x : (⟨S1000000x128, .f32⟩ : BufTy).Contents (Elt Ideal))
    (cnt mean m2 : (⟨S128, .f32⟩ : BufTy).Contents (Elt Ideal)) (r : Fin 1000000) (j : Fin 128) :
    val_main_v35 (F := Ideal) x cnt mean m2 (ix2 r j)
      = refEntry (x (ix2 r j)) (∑ k : Fin 1000000, x (ix2 k j))
          (∑ k : Fin 1000000, (x (ix2 k j) - batchMean (∑ k' : Fin 1000000, x (ix2 k' j)))
              * (x (ix2 k j) - batchMean (∑ k' : Fin 1000000, x (ix2 k' j))))
          (cnt (ix1 j)) (mean (ix1 j)) (m2 (ix1 j)) := by
  rw [val_main_v35_apply, val_main_v32_apply, val_main_v31_apply, val_main_v30_apply, idx_v30_v31_ix,
    val_main_v34_apply, val_main_v33_apply, idx_v33_v34_ix, val_main_v29_apply, ref_newMean,
    ref_variance, Ideal.hostDivf_def, Ideal.subf_def, Ideal.hostUnary_sqrt_def, refEntry]

end Cert.VNorm

end
-- ==== Proof.PreDecode.lean ====
/-
  What the precondition says of the inputs: every entry of x, count, mean and m2 is a real number, and
  every count and every m2 is non-negative.
-/
import proofs.«173743_g90340342104516_pilotgen1_308_7_alg».proof.Pre_finite_inputs
import Idealize.ShloMosaic.PureOps.Ideal
import Idealize.ShloMosaic.PureOps.Ideal.Laws
import Idealize.ShloMosaic.Lib.ReduceAll

noncomputable section

namespace Cert.VNorm

open Idealize.ShloMosaic Cert.Pre_finite_inputs

/-- The f32 word 0x7F800000 denotes +∞. -/
private theorem ofBits_inf : Ideal.ofBits .f32 0x7F800000#32 = (⊤ : EReal) := by
  simp [Ideal.ofBits, Ideal.ieee]

/-- An ordered "less than" that answers 1 is the strict order. -/
private theorem lt_of_cmp_olt {a b : EReal} (h : Ideal.cmp .olt a b = 1#1) : a < b := by
  by_contra hn
  simp [Ideal.cmp, hn] at h

/-- An ordered "greater or equal" that answers 1 is the order. -/
private theorem le_of_cmp_oge {a b : EReal} (h : Ideal.cmp .oge a b = 1#1) : b ≤ a := by
  by_contra hn
  simp [Ideal.cmp, hn] at h

/-- |v| < +∞ excludes both infinities: v is a real number. -/
private theorem real_of_abs_lt_inf (v : EReal)
    (h : Ideal.cmp .olt (max v (-v)) (Ideal.ofBits .f32 0x7F800000#32) = 1#1) : ∃ a : ℝ, v = (a : EReal) := by
  have hlt := lt_of_cmp_olt h
  rw [ofBits_inf] at hlt
  induction v using EReal.rec with
  | bot => simp at hlt
  | coe r => exact ⟨r, rfl⟩
  | top => simp at hlt

/-- v ≥ 0 against the zero word is 0 ≤ v. -/
private theorem nonneg_of_cmp_oge_zero (v : EReal)
    (h : Ideal.cmp .oge v (Ideal.ofBits .f32 0x00000000#32) = 1#1) : 0 ≤ v := by
  have hle := le_of_cmp_oge h
  rwa [Ideal.ofBits_zero_f32] at hle

/-- The printed predicate, all ones, read back: the four finiteness conjuncts (|v| < +∞ at every entry) and
    the two sign conjuncts (count ≥ 0, m2 ≥ 0 at every entry). -/
theorem pre_decode [Cert.Pre_finite_inputs.Facts] (x : FVec Ideal S1000000x128 .f32) (cnt mean m2 : FVec Ideal S128 .f32)
    (h : Cert.Pre_finite_inputs.fn (F := Ideal) x cnt mean m2 = fun _ => 1#1) :
    (∀ i, ∃ a : ℝ, x i = (a : EReal)) ∧ (∀ j, ∃ a : ℝ, 0 ≤ a ∧ cnt j = (a : EReal))
      ∧ (∀ j, ∃ a : ℝ, mean j = (a : EReal)) ∧ (∀ j, ∃ a : ℝ, 0 ≤ a ∧ m2 j = (a : EReal)) := by
  -- the rank-0 result shape has exactly one index
  haveI : Subsingleton S_.Idx := ⟨fun a b => funext fun d => d.elim0⟩
  -- the predicate at that index, as the conjunction of its six reductions
  have h0 := congrFun h (fun d => d.elim0)
  dsimp only [fn, fn_part1, andi] at h0
  obtain ⟨h5, hm2s⟩ := IntOp.andi_eq_one.1 h0
  obtain ⟨h4, hcnts⟩ := IntOp.andi_eq_one.1 h5
  obtain ⟨h3, hm2f⟩ := IntOp.andi_eq_one.1 h4
  obtain ⟨h2, hmeanf⟩ := IntOp.andi_eq_one.1 h3
  obtain ⟨hxf, hcntf⟩ := IntOp.andi_eq_one.1 h2
  -- each reduction gives its compare at every entry
  have ex : ∀ i, ∃ a : ℝ, x i = (a : EReal) := fun i =>
    real_of_abs_lt_inf (x i) (Host.reduce_andi_all _ _ _ _ _ hxf i)
  have ecnt : ∀ j, ∃ a : ℝ, cnt j = (a : EReal) := fun j =>
    real_of_abs_lt_inf (cnt j) (Host.reduce_andi_all _ _ _ _ _ hcntf j)
  have emean : ∀ j, ∃ a : ℝ, mean j = (a : EReal) := fun j =>
    real_of_abs_lt_inf (mean j) (Host.reduce_andi_all _ _ _ _ _ hmeanf j)
  have em2 : ∀ j, ∃ a : ℝ, m2 j = (a : EReal) := fun j =>
    real_of_abs_lt_inf (m2 j) (Host.reduce_andi_all _ _ _ _ _ hm2f j)
  have scnt : ∀ j, 0 ≤ cnt j := fun j =>
    nonneg_of_cmp_oge_zero (cnt j) (Host.reduce_andi_all _ _ _ _ _ hcnts j)
  have sm2 : ∀ j, 0 ≤ m2 j := fun j =>
    nonneg_of_cmp_oge_zero (m2 j) (Host.reduce_andi_all _ _ _ _ _ hm2s j)
  refine ⟨ex, fun j => ?_, emean, fun j => ?_⟩
  · obtain ⟨a, ha⟩ := ecnt j
    exact ⟨a, EReal.coe_nonneg.1 (ha ▸ scnt j), ha⟩
  · obtain ⟨a, ha⟩ := em2 j
    exact ⟨a, EReal.coe_nonneg.1 (ha ▸ sm2 j), ha⟩

end Cert.VNorm

end
-- ==== Proof.lean ====
/-
  The certificate of the value-normalisation kernel against its reference.

  Both programs update running column statistics (count, mean, m2) with a batch of n = 10^6 rows of x and
  normalise x by them. The kernel does it in two passes: the first accumulates, per chunk of 250000 rows, the column
  sums and the column sums of squares, block by block; the second adds the four chunks' partials, forms
  mean_b = Σx / n and m2_b = Σx² - mean_b²·n, combines them with the running statistics, and writes
  (x - new_mean) · rsqrt (new_m2 / denom + eps). The reference forms m2_b = Σ (x - mean_b)² and writes
  (x - new_mean) / sqrt (new_m2 / denom + eps).

  On the extended reals the two agree where the inputs are finite and count, m2 are non-negative: the two forms of
  m2_b are one real number (Σ (x - μ)² = Σ x² - n μ² for μ = Σ x / n over n terms), new_m2 is then non-negative, the
  variance is at least eps > 0, and there the reciprocal square root is the inverse of the square root and a quotient by
  it is the product with that inverse. (Without the sign conditions the variance can be zero or negative, where the
  two last steps take different conventional values.)

  The frames: @main is two kernel regions around three host reshapes; each region is run point by point over its
  grid (the first carries its two accumulators from point to point within a chunk), and the launch over the three
  segments gives termination, no fault, and the contents of every buffer at the end. The word-level program's frame is
  the same text at the other instance. The reference is a host program: its frame is its run with the result dropped.
-/
import proofs.«173743_g90340342104516_pilotgen1_308_7_alg».proof.Defs
import proofs.«173743_g90340342104516_pilotgen1_308_7_alg».proof.Proof.Gen.Kernel
import proofs.«173743_g90340342104516_pilotgen1_308_7_alg».proof.Proof.Gen.KernelIdeal
import proofs.«173743_g90340342104516_pilotgen1_308_7_alg».proof.Proof.Gen.ReferenceIdeal
import proofs.«173743_g90340342104516_pilotgen1_308_7_alg».proof.Proof.Gen.Pre_finite_inputs
import proofs.«173743_g90340342104516_pilotgen1_308_7_alg».proof.Proof.Gen.ReferenceIdeal.Run
import proofs.«173743_g90340342104516_pilotgen1_308_7_alg».proof.Proof.Gen.ReferenceIdeal.Read
import proofs.«173743_g90340342104516_pilotgen1_308_7_alg».proof.Proof.K.RunRead
import proofs.«173743_g90340342104516_pilotgen1_308_7_alg».proof.Proof.KI.RunRead
import proofs.«173743_g90340342104516_pilotgen1_308_7_alg».proof.Proof.KI.KernelValue
import proofs.«173743_g90340342104516_pilotgen1_308_7_alg».proof.Proof.RefValue
import proofs.«173743_g90340342104516_pilotgen1_308_7_alg».proof.Proof.PreDecode
import proofs.«173743_g90340342104516_pilotgen1_308_7_alg».proof.Proof.Spec
import Idealize.ShloMosaic.Lib.ValueIdx

noncomputable section

namespace Cert.Proof

open Idealize.ShloMosaic Idealize.ShloMosaic.TcCoe Idealize.ShloMosaic.ValueIdx Idealize.SL.Sem
open Cert.VNorm

/-- Under the precondition the reference's result, entry by entry, is the kernel's function of the same arrays:
    the reference's entry read off its run, then the law of the two entries, at the column's 10^6 finite values. -/
theorem ref_is_kernel (x : (⟨Cert.ReferenceIdeal.S1000000x128, .f32⟩ : BufTy).Contents (Elt Ideal))
    (cnt mean m2 : (⟨Cert.ReferenceIdeal.S128, .f32⟩ : BufTy).Contents (Elt Ideal))
    (hpre : Cert.Pre_finite_inputs.fn (F := Ideal) x cnt mean m2 = fun _ => 1#1) :
    Cert.ReferenceIdeal.Read.val_main_v35 (F := Ideal) x cnt mean m2 = Cert.KernelIdeal.KernelValue.G x cnt mean m2 := by
  obtain ⟨hx, hcnt, hmean, hm2⟩ := pre_decode x cnt mean m2 hpre
  funext i
  obtain ⟨r, j, rfl⟩ : ∃ (r : Fin 1000000) (j : Fin 128), i = ix2 r j := ⟨i 0, i 1, eq_ix2 i⟩
  rw [ref_entry]
  unfold Cert.KernelIdeal.KernelValue.G
  exact (entry_eq (ι := Fin 1000000) (by simp) (fun k => x (ix2 k j)) (fun k => hx _) r (cnt (ix1 j)) (mean (ix1 j)) (m2 (ix1 j))
    (hcnt _) (hmean _) (hm2 _)).symm

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized program is the program's own text read on the extended reals. -/
theorem preserves : Cert.preserves_Kernel_KernelIdeal := trivial

/-- Both programs run; the kernel's result array ends at `G` of the launched arrays (the run with the result named,
    then the two passes' values), the reference's at its run's term, which is `G` of the same arrays under the
    precondition. -/
theorem algebraic : Cert.algebraic_KernelIdeal_ReferenceIdeal := by
  intro m ρ m' ρ' hpre hagree
  refine ⟨fun c => Cert.KernelIdeal.KernelValue.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.result_eq m ρ c), (h c).2⟩)
      (Cert.KernelIdeal.Run.run_value m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v35_eq _ _ _ _).trans (ref_is_kernel _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
